-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S47x128 : S_.BroadcastsInDim S47x128 (![] : Fin 0 → Fin S47x128.rank)
  reducesTo_S47x128_S_d0_1 : S47x128.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg8 : FVec F S47 .f32) (main_arg9 : FVec F S47x128 .f32) (main_v33 : IVec S_ 1) : IVec S_ 1 :=
  let main_v34 : FVec F S47 .f32 := Host.absf main_arg8
  let main_cst_12 : FVec F S_ .f32 := constant S_ .f32 0x7F800000#32
  let main_v35 : FVec F S47 .f32 := broadcastInDim S47 ![] bcast_S_S47 main_cst_12
  let main_v36 : IVec S47 1 := cmpf .olt main_v34 main_v35
  let main_c_13 : IVec S_ 1 := constantI S_ 1 1#1
  let main_v37 : IVec S_ 1 := (fun x v => Host.reduce IntOp.andi x v reducesTo_S47_S_d0 h_S_) main_v36 main_c_13
  let main_v38 : IVec S_ 1 := andi main_v33 main_v37
  let main_v39 : FVec F S47x128 .f32 := Host.absf main_arg9
  let main_cst_14 : FVec F S_ .f32 := constant S_ .f32 0x7F800000#32
  let main_v40 : FVec F S47x128 .f32 := broadcastInDim S47x128 ![] bcast_S_S47x128 main_cst_14
  let main_v41 : IVec S47x128 1 := cmpf .olt main_v39 main_v40
  let main_c_15 : IVec S_ 1 := constantI S_ 1 1#1
  let main_v42 : IVec S_ 1 := (fun x v => Host.reduce IntOp.andi x v reducesTo_S47x128_S_d0_1 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S47x128 .f32) (main_arg8 : FVec F S47 .f32) (main_arg9 : FVec F S47x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S47x128 .f32 := Host.absf main_arg7
  let main_cst_10 : FVec F S_ .f32 := constant S_ .f32 0x7F800000#32
  let main_v30 : FVec F S47x128 .f32 := broadcastInDim S47x128 ![] bcast_S_S47x128 main_cst_10
  let main_v31 : IVec S47x128 1 := cmpf .olt main_v29 main_v30
  let main_c_11 : IVec S_ 1 := constantI S_ 1 1#1
  let main_v32 : IVec S_ 1 := (fun x v => Host.reduce IntOp.andi x v reducesTo_S47x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S47x128 .f32) (main_arg8 : FVec F S47 .f32) (main_arg9 : FVec F S47x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S10000x128 : Shape := ⟨2, ![10000, 128]⟩
abbrev S10000 : Shape := ⟨1, ![10000]⟩
abbrev S10000x1 : Shape := ⟨2, ![10000, 1]⟩
abbrev S1x47 : Shape := ⟨2, ![1, 47]⟩
abbrev S100000x47 : Shape := ⟨2, ![100000, 47]⟩
abbrev S10000x47 : Shape := ⟨2, ![10000, 47]⟩
abbrev S128x47 : Shape := ⟨2, ![128, 47]⟩

abbrev nBuf : Space → Nat
  | .hbm => 91
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S47x128, .f32⟩
  | .hbm, ⟨8, _⟩ => ⟨S47, .f32⟩
  | .hbm, ⟨9, _⟩ => ⟨S47x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S100000x128, .f32⟩
  | .hbm, ⟨25, _⟩ => ⟨S800000x1, .i32⟩
  | .hbm, ⟨26, _⟩ => ⟨S100000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S100000, .f32⟩
  | .hbm, ⟨31, _⟩ => ⟨S800000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S_, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S100000x128, .f32⟩
  | .hbm, ⟨60, _⟩ => ⟨S1x800000, .i32⟩
  | .hbm, ⟨61, _⟩ => ⟨S800000, .i32⟩
  | .hbm, ⟨62, _⟩ => ⟨S1x800000, .i32⟩
  | .hbm, ⟨63, _⟩ => ⟨S800000, .i32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S_, .f32⟩
  | .hbm, ⟨74, _⟩ => ⟨S100000x128, .f32⟩
  | .hbm, ⟨75, _⟩ => ⟨S800000x1, .i32⟩
  | .hbm, ⟨76, _⟩ => ⟨S100000x128, .f32⟩
  | .hbm, ⟨77, _⟩ => ⟨S_, .f32⟩
  | .hbm, ⟨78, _⟩ => ⟨S800000, .f32⟩
  | .hbm, ⟨79, _⟩ => ⟨S_, .f32⟩
  | .hbm, ⟨80, _⟩ => ⟨S100000, .f32⟩
  | .hbm, ⟨81, _⟩ => ⟨S800000x1, .i32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x128, .f32⟩
  | .hbm, ⟨88, _⟩ => ⟨S100000x128, .f32⟩
  | .hbm, ⟨89, _⟩ => ⟨S1x47, .f32⟩
  | .hbm, ⟨90, _⟩ => ⟨S100000x47, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S47x128, .f32⟩
  | .local _ .vmem, ⟨22, _⟩ => ⟨S1x47, .f32⟩
  | .local _ .vmem, ⟨23, _⟩ => ⟨S47x128, .f32⟩
  | .local _ .vmem, ⟨24, _⟩ => ⟨S10000x47, .f32⟩
  | .local _ .vmem, ⟨25, _⟩ => ⟨S10000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S47x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S47x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  broadcasts_S10000x1_S10000x128 : S10000x1.Broadcasts S10000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S47_S1x47 : S47.ShapeCasts S1x47
  inb_S47x128_S47x128_0_0 : ∀ a, (![0, 0] : Fin 2 → Nat) a + S47x128.size a ≤ S47x128.size a
  h_S47x128 : 0 < S47x128.numel
  transposes_S47x128_p1_0_S128x47 : S47x128.Transposes [1, 0] S128x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S10000x47 : S1x47.Broadcasts S10000x47
  reduces_S10000x47_S10000 : S10000x47.Reduces [1] S10000
  broadcasts_S10000x1_S10000x47 : S10000x1.Broadcasts S10000x47
  inb_S10000x47_S10000x47_0_0 : ∀ a, (![0, 0] : Fin 2 → Nat) a + S10000x47.size a ≤ S10000x47.size a
  h_S10000x47 : 0 < S10000x47.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S10000x128_S128x128_S10000x128_1_0_0_1_n_n_wf : DotDims.WF S10000x128 S128x128 S10000x128 [1] [0] [0] [1] [] []
  dot_S10000x128_S128x47_S10000x47_1_0_0_1_n_n_wf : DotDims.WF S10000x128 S128x47 S10000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S47x128.size a ≤ S47x128.size a
  hwx2_2 : ∀ i : grid2.Coords, EltTy.bits .f32 = 32 ∨ (Rect.block (s := S47x128) S47x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x47.size a ≤ S1x47.size a
  hwx2_3 : ∀ i : grid2.Coords, EltTy.bits .f32 = 32 ∨ (Rect.block (s := S1x47) S1x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S47x128.size a ≤ S47x128.size a
  hwx2_4 : ∀ i : grid2.Coords, EltTy.bits .f32 = 32 ∨ (Rect.block (s := S47x128) S47x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x47.size a ≤ S100000x47.size a
  hwx2_5 : ∀ i : grid2.Coords, EltTy.bits .f32 = 32 ∨ (Rect.block (s := S100000x47) S10000x47.size (cc2_transform_5 i) (hinb2_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x47_S10000x47_1_0_0_1_n_n : DotDims S10000x128 S128x47 S10000x47 where
  lhsContracting := [1]
  rhsContracting := [0]
  lhsNonContracting := [0]
  rhsNonContracting := [1]
  lhsBatch := []
  rhsBatch := []
  wf := dot_S10000x128_S128x47_S10000x47_1_0_0_1_n_n_wf

abbrev win0_0 : Pipeline.Window sig grid0 :=
  Pipeline.Window.ofSpec (Memref.whole main_v22) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S47x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S47x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S10000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S128x47 : Shape := ⟨2, ![128, 47]⟩
abbrev S100000x47 : Shape := ⟨2, ![100000, 47]⟩
abbrev S1x47 : Shape := ⟨2, ![1, 47]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S47x128, .f32⟩
  | 8 => ⟨S47, .f32⟩
  | 9 => ⟨S47x128, .f32⟩
  | 10 => ⟨S1x800000, .i32⟩
  | 11 => ⟨S800000, .i32⟩
  | 12 => ⟨S1x800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S100000x128, .f32⟩
  | 25 => ⟨S800000x1, .i32⟩
  | 26 => ⟨S100000x128, .f32⟩
  | 27 => ⟨S_, .f32⟩
  | 28 => ⟨S800000, .f32⟩
  | 29 => ⟨S_, .f32⟩
  | 30 => ⟨S100000, .f32⟩
  | 31 => ⟨S800000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S128x128, .f32⟩
  | 40 => ⟨S100000x128, .f32⟩
  | 41 => ⟨S1x128, .f32⟩
  | 42 => ⟨S100000x128, .f32⟩
  | 43 => ⟨S100000x128, .f32⟩
  | 44 => ⟨S128x128, .f32⟩
  | 45 => ⟨S100000x128, .f32⟩
  | 46 => ⟨S100000x128, .f32⟩
  | 47 => ⟨S100000x128, .f32⟩
  | 48 => ⟨S_, .f32⟩
  | 49 => ⟨S100000, .f32⟩
  | 50 => ⟨S100000x1, .f32⟩
  | 51 => ⟨S100000x1, .f32⟩
  | 52 => ⟨S_, .f32⟩
  | 53 => ⟨S100000x1, .f32⟩
  | 54 => ⟨S100000x1, .f32⟩
  | 55 => ⟨S100000x128, .f32⟩
  | 56 => ⟨S100000x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S1x800000, .i32⟩
  | 91 => ⟨S800000, .i32⟩
  | 92 => ⟨S1x800000, .i32⟩
  | 93 => ⟨S800000, .i32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S_, .f32⟩
  | 104 => ⟨S100000x128, .f32⟩
  | 105 => ⟨S800000x1, .i32⟩
  | 106 => ⟨S100000x128, .f32⟩
  | 107 => ⟨S_, .f32⟩
  | 108 => ⟨S800000, .f32⟩
  | 109 => ⟨S_, .f32⟩
  | 110 => ⟨S100000, .f32⟩
  | 111 => ⟨S800000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x128, .f32⟩
  | 118 => ⟨S100000x128, .f32⟩
  | 119 => ⟨S128x47, .f32⟩
  | 120 => ⟨S100000x47, .f32⟩
  | 121 => ⟨S1x47, .f32⟩
  | 122 => ⟨S100000x47, .f32⟩
  | 123 => ⟨S100000x47, .f32⟩
  | 124 => ⟨S128x47, .f32⟩
  | 125 => ⟨S100000x47, .f32⟩
  | 126 => ⟨S100000x47, .f32⟩
  | 127 => ⟨S100000x47, .f32⟩
  | _ => ⟨S100000x128, .f32⟩

abbrev hbmTy0_1 (i : Nat) : BufTy := match i % 128 with
  | 0 => ⟨S_, .f32⟩
  | 1 => ⟨S100000, .f32⟩
  | 2 => ⟨S100000x1, .f32⟩
  | 3 => ⟨S100000x1, .f32⟩
  | 4 => ⟨S_, .f32⟩
  | 5 => ⟨S100000x1, .f32⟩
  | 6 => ⟨S100000x1, .f32⟩
  | 7 => ⟨S100000x47, .f32⟩
  | 8 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call0_cst : Ref sig .tc := ⟨.hbm, 87, rfl⟩
abbrev main_call0_v0 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_11 : Ref sig .tc := ⟨.hbm, 94, rfl⟩
abbrev main_v69 : Ref sig .tc := ⟨.hbm, 95, rfl⟩
abbrev main_v70 : Ref sig .tc := ⟨.hbm, 96, rfl⟩
abbrev main_c_12 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_14 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_17 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_18 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  reducesTo_S100000x128_S128_d0 : S100000x128.ReducesTo [0] S128
  bcast_S_S128 : S_.BroadcastsInDim S128 (![] : Fin 0 → Fin S128.rank)
  transposes_S47x128_S128x47_1_0 : S47x128.Transposes [1, 0] S128x47
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  bcast_S100000x1_S100000x47_0_1 : S100000x1.BroadcastsInDim S100000x47 (![0, 1] : Fin 2 → Fin S100000x47.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.Spec.lean ====
/-
  The mathematics both programs compute, entry by entry over the extended reals.

  A SAGE layer with mean aggregation sends a node with aggregated neighbour row `a` and own feature row `x` to
      linRow q = (Σ_k a k · wl q k) + bl q + Σ_k x k · wr q k
  and then divides the row by its Euclidean norm, the norm kept away from zero by a floor:
      sageRow q = linRow q / max (sqrt (Σ_j linRow j · linRow j)) floor.
  An output row depends on the node's own two rows only, which is why a block of rows of the result is
  computed from the same block of rows of the inputs.
  Batch normalisation with given column statistics followed by the rectifier is, entry by entry,
      bnAt = max (gamma · (h − mean) · rsqrt (var + eps) + beta) 0.
  Arrays enter as functions of their coordinates, so the same definitions serve both layers (128 and 47
  output columns), both programs, and a block of rows as well as the whole array.
-/
import Idealize.ShloMosaic.PureOps.Ideal
import Idealize.ShloMosaic.PureOps.Ideal.Laws

noncomputable section

open scoped BigOperators

namespace Cert.Sage

open Idealize.ShloMosaic

/-- One entry of a node's row before normalisation: the aggregated neighbours through the left weights, the
    bias, and the node's own features through the right weights, added in that order. -/
def linRow {C : Nat} (a x : Fin 128 → EReal) (wl wr : Fin C → Fin 128 → EReal) (bl : Fin C → EReal) (q : Fin C) : EReal :=
  ((∑ k : Fin 128, a k * wl q k) + bl q) + ∑ k : Fin 128, x k * wr q k

/-- One entry of a node's output row: the entry of `linRow` over the row's Euclidean norm, the norm floored at
    the single-precision value nearest 1e-12. -/
def sageRow {C : Nat} (a x : Fin 128 → EReal) (wl wr : Fin C → Fin 128 → EReal) (bl : Fin C → EReal) (q : Fin C) : EReal :=
  Ideal.div (linRow a x wl wr bl q)
    (max (Ideal.sqrt (∑ j : Fin C, linRow a x wl wr bl j * linRow a x wl wr bl j)) (Ideal.ofBits .f32 0x2B8CBCCC#32))

/-- A layer's output at node `r`, column `q`: `sageRow` of the node's two rows. -/
def sage {R C : Nat} (agg x : Fin R → Fin 128 → EReal) (wl wr : Fin C → Fin 128 → EReal) (bl : Fin C → EReal)
    (r : Fin R) (q : Fin C) : EReal :=
  sageRow (agg r) (x r) wl wr bl q

/-- One entry of batch normalisation (the variance offset by the single-precision value nearest 1e-5)
    followed by the rectifier. -/
def bnAt (h mean var gamma beta : EReal) : EReal :=
  max (gamma * (h - mean) * Ideal.rsqrt (var + Ideal.ofBits .f32 0x3727C5AC#32) + beta) (Ideal.ofBits .f32 0x00000000#32)

/-- Batch normalisation with column statistics `mean`, `var`, then the rectifier, at node `r`, column `q`. -/
def bnrelu {R : Nat} (h : Fin R → Fin 128 → EReal) (mean var gamma beta : Fin 128 → EReal) (r : Fin R) (q : Fin 128) : EReal :=
  bnAt (h r q) (mean q) (var q) (gamma q) (beta q)

end Cert.Sage

end
-- ==== Proof.KPay0.lean ====
/-
  The first layer's kernel body at one entry of its block: the two products against the transposed weights are
  sums over the shared axis, the bias row is repeated down the block, the row's sum of squares is a sum over the
  columns, and the quotient by the floored norm is taken entry by entry.
-/
import proofs.«126531_j39075612459051_1_alg».proof.Proof.Gen.KernelIdeal.Skeleton
import proofs.«126531_j39075612459051_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.ValueIdx

namespace Cert.KernelIdeal.Pay0

open Cert.KernelIdeal Cert.KernelIdeal.Gen

/-! ## The product's operand indices, axis by axis

The product contracts axis 1 of its left operand with axis 0 of its right operand; the other two axes are the
result's. -/

/-- The left operand's row is the result's row. -/
theorem lhs_axis0 (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The left operand's column is the contracted coordinate. -/
theorem lhs_axis1 (i : S10000x128.Idx) (c : dot_S10000x128_S128x128_S10000x128_1_0_0_1_n_n.contr.Idx) :
    (dot_S10000x128_S128x128_S10000x128_1_0_0_1_n_n.lhsIdx i c 1).val = (c ⟨0, by decide⟩).val :=
  dot_S10000x128_S128x128_S10000x128_1_0_0_1_n_n.lhsIdx_val_of_single rfl i c

/-- The right operand's row is the contracted coordinate. -/
theorem rhs_axis0 (i : S10000x128.Idx) (c : dot_S10000x128_S128x128_S10000x128_1_0_0_1_n_n.contr.Idx) :
    (dot_S10000x128_S128x128_S10000x128_1_0_0_1_n_n.rhsIdx i c 0).val = (c ⟨0, by decide⟩).val :=
  dot_S10000x128_S128x128_S10000x128_1_0_0_1_n_n.rhsIdx_val_of_single rfl i c

/-- The right operand's column is the result's column. -/
theorem rhs_axis1 (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- A product into the zero block, at entry (p, q): the sum over k of the left operand at (p, k) times the right
    operand at (k, q). -/
theorem product_apply (A : FVec Ideal S10000x128 .bf16) (B : FVec Ideal S128x128 .bf16) (p : Fin 10000) (q : Fin 128) :
    matmul dot_S10000x128_S128x128_S10000x128_1_0_0_1_n_n none A B (constant (F := Ideal) S10000x128 .f32 0x00000000#32) (ix2 p q)
      = ∑ k : Fin 128, A (ix2 p k) * B (ix2 k q) := by
  show FloatOps.matmul dot_S10000x128_S128x128_S10000x128_1_0_0_1_n_n none A B (constant (F := Ideal) S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact lhs_axis0 _ _
      | ⟨1, _⟩ => exact (lhs_axis1 _ _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact (rhs_axis0 _ _).trans hk
      | ⟨1, _⟩ => exact rhs_axis1 _ _)
  rw [el, er]

/-! ## A vector as a column, and a column repeated along the columns -/

/-- A length-a vector viewed as an a × 1 column reads, at (p, u), the vector at p. -/
theorem column_of_vector_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a × 1 column repeated along b columns reads, at (p, c), the column at p. -/
theorem column_broadcast_apply {α : Type} {a b : ℕ} (x : (⟨2, ![a, 1]⟩ : Shape).Idx → α)
    (h : (⟨2, ![a, 1]⟩ : Shape).Broadcasts ⟨2, ![a, b]⟩) (ha : a ≠ 1) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    rw [if_neg ha]
  | ⟨1, _⟩ =>
    show 0 = if (1 : ℕ) = 1 then 0 else c.val
    rw [if_pos rfl]

/-! ## The row's sum of squares -/

/-- The index a sum along the columns reads: row p with k put back on the dropped axis. -/
theorem lift_row (h : S10000x128.Reduces [1] S10000) (p : Fin 10000) (k : Fin 128) :
    h.lift (ix1 p) k = ix2 p k :=
  funext fun a => Fin.ext (by
    match a with
    | ⟨0, _⟩ => rfl
    | ⟨1, _⟩ => rfl)

/-- A block summed along its columns from zero reads, at row p, the sum over the columns of row p. -/
theorem row_sum_apply (X : FVec Ideal S10000x128 .f32) (h : S10000x128.Reduces [1] S10000) (hφ : FKind.Formats .f32)
    (hacc : (0x00000000#32 : BitVec 32) = FKind.add.neutral .f32 hφ) (p : Fin 10000) :
    multiReduction (F := Ideal) .add [1] S10000 X 0x00000000#32 h hφ hacc (ix1 p) = ∑ k : Fin 128, X (ix2 p k) := by
  refine (Ideal.multiReduction_add_single X 0x00000000#32 h hφ hacc (ix1 p)).trans ?_
  exact Finset.sum_congr rfl fun k _ => congrArg X (lift_row h p k)

/-! ## The row before normalisation -/

/-- Entry (p, j) of the sum of the two products and the repeated bias row is `Sage.linRow` of row p at j: each
    weight matrix is read transposed, so the product's right factor at (k, j) is the weight at (j, k). -/
theorem lin_apply (v0 v3 : Vec Ideal S10000x128 .f32) (v5 v7 : Vec Ideal S128x128 .f32) (v11 : Vec Ideal S1x128 .f32)
    (p : Fin 10000) (j : Fin 128) :
    addf
        (addf
          (matmul dot_S10000x128_S128x128_S10000x128_1_0_0_1_n_n none
            (truncf .bf16 (shapeCast S10000x128 v0 shapeCasts_S10000x128_S10000x128) bitsLt_bf16_f32)
            (transpose S128x128 [1, 0] (truncf .bf16 v5 bitsLt_bf16_f32) transposes_S128x128_p1_0_S128x128)
            (constant (F := Ideal) S10000x128 .f32 0x00000000#32))
          (broadcastTo S10000x128 (shapeCast S1x128 v11 shapeCasts_S1x128_S1x128) broadcasts_S1x128_S10000x128))
        (matmul dot_S10000x128_S128x128_S10000x128_1_0_0_1_n_n none
          (truncf .bf16 v3 bitsLt_bf16_f32)
          (transpose S128x128 [1, 0] (truncf .bf16 v7 bitsLt_bf16_f32) transposes_S128x128_p1_0_S128x128)
          (constant (F := Ideal) S10000x128 .f32 0x00000000#32))
        (ix2 p j)
      = Cert.Sage.linRow (C := 128) (fun k => v0 (ix2 p k)) (fun k => v3 (ix2 p k))
          (fun j k => v5 (ix2 j k)) (fun j k => v7 (ix2 j k)) (fun j => v11 (ix2 (0 : Fin 1) j)) j := by
  rw [addf_apply, addf_apply, product_apply, product_apply, broadcastTo_1b_ab_apply, shapeCast_self, shapeCast_self]
  unfold Cert.Sage.linRow
  refine congrArg₂ (· + ·) (congrArg₂ (· + ·) ?_ rfl) ?_
  · refine Finset.sum_congr rfl fun k _ => ?_
    rw [transpose_ix2_apply]
    rfl
  · refine Finset.sum_congr rfl fun k _ => ?_
    rw [transpose_ix2_apply]
    rfl

/-! ## The quotient by the floored norm -/

/-- For any block L: L over the row-wise floored norm of L, at entry (p, q). -/
theorem normalise_apply (L : FVec Ideal S10000x128 .f32) (hφ : FKind.Formats .f32)
    (hacc : (0x00000000#32 : BitVec 32) = FKind.add.neutral .f32 hφ) (p : Fin 10000) (q : Fin 128) :
    divf L
        (broadcastTo S10000x128
          (maximumf
            (sqrt (shapeCast S10000x1
              (multiReduction (F := Ideal) .add [1] S10000 (mulf L L) 0x00000000#32 reduces_S10000x128_S10000 hφ hacc)
              shapeCasts_S10000_S10000x1))
            (broadcast S10000x1 (Scalar.ofBits (F := Ideal) .f32 0x2B8CBCCC#32)))
          broadcasts_S10000x1_S10000x128)
        (ix2 p q)
      = Ideal.div (L (ix2 p q))
          (max (Ideal.sqrt (∑ j : Fin 128, L (ix2 p j) * L (ix2 p j))) (Ideal.ofBits .f32 0x2B8CBCCC#32)) := by
  rw [divf_apply, column_broadcast_apply _ _ (by decide), maximumf_apply]
  refine congrArg (Ideal.div (L (ix2 p q))) (congrArg₂ max ?_ rfl)
  show Ideal.sqrt (shapeCast S10000x1 _ shapeCasts_S10000_S10000x1 (ix2 p (0 : Fin 1))) = _
  rw [column_of_vector_apply, row_sum_apply]
  rfl

/-- Entry (p, q) of the body's stored value is `Sage.sageRow` of row p of the two feature blocks, the two weight
    matrices and the bias row. -/
theorem pay0_apply (v0 v3 : Vec Ideal S10000x128 .f32) (v5 v7 : Vec Ideal S128x128 .f32) (v11 : Vec Ideal S1x128 .f32)
    (p : Fin 10000) (q : Fin 128) :
    k0_pay1 (F := Ideal) v0 v3 v5 v7 v11 (ix2 p q)
      = Cert.Sage.sageRow (C := 128) (fun k => v0 (ix2 p k)) (fun k => v3 (ix2 p k))
          (fun j k => v5 (ix2 j k)) (fun j k => v7 (ix2 j k)) (fun j => v11 (ix2 (0 : Fin 1) j)) q := by
  unfold k0_pay1
  refine (normalise_apply _ _ _ p q).trans ?_
  unfold Cert.Sage.sageRow
  refine congrArg₂ Ideal.div (lin_apply v0 v3 v5 v7 v11 p q)
    (congrArg₂ max (congrArg Ideal.sqrt (Finset.sum_congr rfl fun j _ => ?_)) rfl)
  exact congrArg₂ (· * ·) (lin_apply v0 v3 v5 v7 v11 p j) (lin_apply v0 v3 v5 v7 v11 p j)

end Cert.KernelIdeal.Pay0

end
-- ==== Proof.KReg0.lean ====
/-
  The first layer's kernel region, read as a value: after its ten grid points the output array holds, at
  every entry (r, q), the normalised SAGE row of the arrays the region found on entry.
-/
import proofs.«126531_j39075612459051_1_alg».proof.Proof.Gen.KernelIdeal.Frame
import proofs.«126531_j39075612459051_1_alg».proof.Proof.Spec
import proofs.«126531_j39075612459051_1_alg».proof.Proof.KPay0
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Reg0

open Cert.KernelIdeal Cert.KernelIdeal.Gen

/-- The pair of zero offsets, spelt as a constant function. -/
private theorem zero_off : (![0, 0] : Fin 2 → Nat) = fun _ => 0 := funext fun a => by fin_cases a <;> rfl

/-- The block indices over the ten grid points: the two row-blocked inputs and the output sit at block (t, 0),
    the two weight matrices and the bias row at block (0, 0). -/
private theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks

variable (V : (c : Dev nD) → (b : Ref sig .tc) → Buf (Elt Ideal) ((c : Thread nD τ).loc b)) (c : Dev nD)

/-- Row p of block t of the aggregated features is row 10000·t + p of the array. -/
private theorem agg_rows (t : Fin cfg0.N) (p : Fin 10000) (k : Fin 128) (h : 10000 * t.val + p.val < 100000) :
    (iblk0 (F := Ideal) V c 0 t : Vec Ideal S10000x128 .f32) (ix2 p k) = V c main_v22 (ix2 ⟨10000 * t.val + p.val, h⟩ k) := by
  obtain ⟨e0, e1, -⟩ := index_facts t
  unfold iblk0
  rw [View.read_apply]
  show V c main_v22 _ = V c main_v22 _
  refine congrArg (V c main_v22) ?_
  funext a
  apply Fin.ext
  match a with
  | ⟨0, _⟩ => show win0_0.index t 0 * 10000 + 1 * p.val = 10000 * t.val + p.val; rw [e0]; omega
  | ⟨1, _⟩ => show win0_0.index t 1 * 128 + 1 * k.val = k.val; rw [e1]; omega

/-- Row p of block t of the node features is row 10000·t + p of the array. -/
private theorem own_rows (t : Fin cfg0.N) (p : Fin 10000) (k : Fin 128) (h : 10000 * t.val + p.val < 100000) :
    (iblk0 (F := Ideal) V c 1 t : Vec Ideal S10000x128 .f32) (ix2 p k) = V c main_arg0 (ix2 ⟨10000 * t.val + p.val, h⟩ k) := by
  obtain ⟨-, -, e0, e1, -⟩ := index_facts t
  unfold iblk0
  rw [View.read_apply]
  show V c main_arg0 _ = V c main_arg0 _
  refine congrArg (V c main_arg0) ?_
  funext a
  apply Fin.ext
  match a with
  | ⟨0, _⟩ => show win0_1.index t 0 * 10000 + 1 * p.val = 10000 * t.val + p.val; rw [e0]; omega
  | ⟨1, _⟩ => show win0_1.index t 1 * 128 + 1 * k.val = k.val; rw [e1]; omega

/-- The left weights' block at every point is the whole matrix. -/
private theorem left_weights (t : Fin cfg0.N) (j k : Fin 128) :
    (iblk0 (F := Ideal) V c 2 t : Vec Ideal S128x128 .f32) (ix2 j k) = V c main_arg2 (ix2 j k) := by
  obtain ⟨-, -, -, -, e0, e1, -⟩ := index_facts t
  unfold iblk0
  rw [View.read_apply]
  show V c main_arg2 _ = V c main_arg2 _
  refine congrArg (V c main_arg2) ?_
  funext a
  apply Fin.ext
  match a with
  | ⟨0, _⟩ => show win0_2.index t 0 * 128 + 1 * j.val = j.val; rw [e0]; omega
  | ⟨1, _⟩ => show win0_2.index t 1 * 128 + 1 * k.val = k.val; rw [e1]; omega

/-- The bias row's block at every point is the whole row. -/
private theorem bias_row (t : Fin cfg0.N) (j : Fin 128) :
    (iblk0 (F := Ideal) V c 3 t : Vec Ideal S1x128 .f32) (ix2 (0 : Fin 1) j) = V c main_v23 (ix2 (0 : Fin 1) j) := by
  obtain ⟨-, -, -, -, -, -, e0, e1, -⟩ := index_facts t
  unfold iblk0
  rw [View.read_apply]
  show V c main_v23 _ = V c main_v23 _
  refine congrArg (V c main_v23) ?_
  funext a
  apply Fin.ext
  match a with
  | ⟨0, _⟩ => show win0_3.index t 0 * 1 + 1 * (0 : Fin 1).val = (0 : Fin 1).val; rw [e0]; rfl
  | ⟨1, _⟩ => show win0_3.index t 1 * 128 + 1 * j.val = j.val; rw [e1]; omega

/-- The right weights' block at every point is the whole matrix. -/
private theorem right_weights (t : Fin cfg0.N) (j k : Fin 128) :
    (iblk0 (F := Ideal) V c 4 t : Vec Ideal S128x128 .f32) (ix2 j k) = V c main_arg4 (ix2 j k) := by
  obtain ⟨-, -, -, -, -, -, -, -, e0, e1, -⟩ := index_facts t
  unfold iblk0
  rw [View.read_apply]
  show V c main_arg4 _ = V c main_arg4 _
  refine congrArg (V c main_arg4) ?_
  funext a
  apply Fin.ext
  match a with
  | ⟨0, _⟩ => show win0_4.index t 0 * 128 + 1 * j.val = j.val; rw [e0]; omega
  | ⟨1, _⟩ => show win0_4.index t 1 * 128 + 1 * k.val = k.val; rw [e1]; omega

/-- The whole output array as one function of the arrays on entry: entry (r, q) is the normalised SAGE row of
    node r at column q. -/
private def layer : S100000x128.Idx → EReal := fun i => Cert.Sage.sage (C := 128)
    (fun r k => V c main_v22 (ix2 r k)) (fun r k => V c main_arg0 (ix2 r k))
    (fun q k => V c main_arg2 (ix2 q k)) (fun q k => V c main_arg4 (ix2 q k))
    (fun q => V c main_v23 (ix2 (0 : Fin 1) q)) (i 0) (i 1)

/-- Entry (p, q) of the output's block t sits in the array at (10000·t + p, q). -/
private theorem out_rows (t : Fin cfg0.N) (p : Fin 10000) (q : Fin 128) (h : 10000 * t.val + p.val < 100000) :
    ((cfg0.win 5).blk t).view.emb (ix2 p q) = (ix2 ⟨10000 * t.val + p.val, h⟩ q : S100000x128.Idx) := by
  obtain ⟨-, -, -, -, -, -, -, -, -, -, e0, e1⟩ := index_facts t
  funext a
  apply Fin.ext
  match a with
  | ⟨0, _⟩ => show win0_5.index t 0 * 10000 + 1 * p.val = 10000 * t.val + p.val; rw [e0]; omega
  | ⟨1, _⟩ => show win0_5.index t 1 * 128 + 1 * q.val = q.val; rw [e1]; omega

/-- What point t writes back is block t of `layer`: an output row depends on the node's own two rows, the weights
    and the bias only, and those are the same in the blocks as in the arrays. -/
private theorem flushed_eq (t : Fin cfg0.N) :
    (dat0 (F := Ideal) V c).flushed 5 t = ((cfg0.win 5).blk t).view.read (Elt Ideal) (layer V c) := by
  show (cfg0.win 5).cut (grid0.coords t) ((dat0 V c).after 5 t) = _
  rw [after0_5]
  unfold out0_5
  rw [View.canon_unit_zero zero_off]
  simp only [View.ld_unit_zero (S := S10000x128) zero_off, View.ld_unit_zero (S := S128x128) zero_off, View.ld_unit_zero (S := S1x128) zero_off]
  funext j
  obtain ⟨p, q, rfl⟩ : ∃ (p : Fin 10000) (q : Fin 128), j = ix2 p q := ⟨j 0, j 1, eq_ix2 j⟩
  have hN : cfg0.N = 10 := N_0
  have hrow : 10000 * t.val + p.val < 100000 := by have := t.isLt; have := p.isLt; omega
  refine (Pay0.pay0_apply (iblk0 V c 0 t) (iblk0 V c 1 t) (iblk0 V c 2 t) (iblk0 V c 4 t) (iblk0 V c 3 t) p q).trans ?_
  rw [View.read_apply]
  show _ = layer V c (((cfg0.win 5).blk t).view.emb (ix2 p q))
  rw [out_rows t p q hrow]
  have h0 : (fun k : Fin 128 => (iblk0 (F := Ideal) V c 0 t : Vec Ideal S10000x128 .f32) (ix2 p k)) = fun k => V c main_v22 (ix2 ⟨10000 * t.val + p.val, hrow⟩ k) :=
    funext fun k => agg_rows V c t p k hrow
  have h1 : (fun k : Fin 128 => (iblk0 (F := Ideal) V c 1 t : Vec Ideal S10000x128 .f32) (ix2 p k)) = fun k => V c main_arg0 (ix2 ⟨10000 * t.val + p.val, hrow⟩ k) :=
    funext fun k => own_rows V c t p k hrow
  have h2 : (fun j k : Fin 128 => (iblk0 (F := Ideal) V c 2 t : Vec Ideal S128x128 .f32) (ix2 j k)) = fun j k => V c main_arg2 (ix2 j k) :=
    funext fun j => funext fun k => left_weights V c t j k
  have h3 : (fun j : Fin 128 => (iblk0 (F := Ideal) V c 3 t : Vec Ideal S1x128 .f32) (ix2 (0 : Fin 1) j)) = fun j => V c main_v23 (ix2 (0 : Fin 1) j) :=
    funext fun j => bias_row V c t j
  have h4 : (fun j k : Fin 128 => (iblk0 (F := Ideal) V c 4 t : Vec Ideal S128x128 .f32) (ix2 j k)) = fun j k => V c main_arg4 (ix2 j k) :=
    funext fun j => funext fun k => right_weights V c t j k
  rw [h0, h1, h2, h3, h4]
  rfl

/-- Every entry (r, q) of the array lies in the block of point r / 10000. -/
private theorem covered (i : S100000x128.Idx) :
    ∃ t : Fin cfg0.N, (cfg0.win 5).flush t = true ∧ i ∈ ((cfg0.win 5).blk t).view.set := by
  have hN : cfg0.N = 10 := N_0
  have hi0 : (i 0).val < 100000 := (i 0).isLt
  have hi1 : (i 1).val < 128 := (i 1).isLt
  obtain ⟨t, ht⟩ : ∃ t : Fin cfg0.N, t.val = (i 0).val / 10000 := ⟨⟨(i 0).val / 10000, by rw [hN]; omega⟩, rfl⟩
  obtain ⟨-, -, -, -, -, -, -, -, -, -, e0, e1⟩ := index_facts t
  refine ⟨t, flush0_5 t, ?_⟩
  show i ∈ ((View.whole main_v24).slice (win0_5.rect t)).set
  rw [View.set_slice_whole, Rect.mem_set_unit]
  intro a
  match a with
  | ⟨0, _⟩ => show win0_5.index t 0 * 10000 ≤ (i 0).val ∧ (i 0).val < win0_5.index t 0 * 10000 + 10000; rw [e0, ht]; omega
  | ⟨1, _⟩ => show win0_5.index t 1 * 128 ≤ (i 1).val ∧ (i 1).val < win0_5.index t 1 * 128 + 128; rw [e1]; omega

end Blocks

/-- The first layer's output array after the region: entry (r, q) is `Sage.sage` of the aggregated features,
    the node features, the two weight matrices and the bias row as the region found them. -/
theorem arr0 (V : (c : Dev nD) → (b : Ref sig .tc) → Buf (Elt Ideal) ((c : Thread nD τ).loc b)) (c : Dev nD) :
    (dat0 (F := Ideal) V c).arrAt 5 cfg0.N
      = fun i => Cert.Sage.sage (C := 128)
          (fun r k => V c main_v22 (ix2 r k)) (fun r k => V c main_arg0 (ix2 r k))
          (fun q k => V c main_arg2 (ix2 q k)) (fun q k => V c main_arg4 (ix2 q k))
          (fun q => V c main_v23 (ix2 (0 : Fin 1) q)) (i 0) (i 1) :=
  (dat0 V c).arrAt_eq_of_cover 5 (layer V c) (fun t _ => flushed_eq V c t) (covered)

end Cert.KernelIdeal.Reg0

end
-- ==== Proof.RefStages.lean ====
/-
  The reference, stage by stage, against the same three entrywise definitions: its first normalised SAGE
  layer, its batch normalisation with the rectifier, and its second normalised SAGE layer are `Sage.sage`,
  `Sage.bnrelu` and `Sage.sage` of the stages they read.
-/
import proofs.«126531_j39075612459051_1_alg».proof.Proof.Gen.ReferenceIdeal.Run
import proofs.«126531_j39075612459051_1_alg».proof.Proof.Gen.ReferenceIdeal.Read
import proofs.«126531_j39075612459051_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.ValueIdx

namespace Cert.ReferenceIdeal.Stages

open Cert.ReferenceIdeal Cert.ReferenceIdeal.Read

/-! ### First layer: index bookkeeping

An entry of the transposed weight matrix at (k, q) is the weight at (q, k); a bias broadcast along the rows is read at
its column; the row sum, the root and the floor are read at the row. -/

private theorem lidx24_eq (r : Fin 100000) (j k : Fin 128) : lidx_main_v24 (ix2 r j) k = ix2 r k :=
  funext fun a => Fin.ext (by match a with | ⟨0, _⟩ => rfl | ⟨1, _⟩ => rfl)

private theorem tr23_eq (r : Fin 100000) (j k : Fin 128) : idx_main_v23 (ridx_main_v24 (ix2 r j) k) = ix2 j k :=
  funext fun a => Fin.ext (by match a with | ⟨0, _⟩ => rfl | ⟨1, _⟩ => rfl)

private theorem bias26_eq (r : Fin 100000) (j : Fin 128) : idx_main_v25 (idx_main_v26 (ix2 r j)) = ix1 j :=
  funext fun a => Fin.ext (by match a with | ⟨0, _⟩ => rfl)

private theorem lidx29_eq (r : Fin 100000) (j k : Fin 128) : lidx_main_v29 (ix2 r j) k = ix2 r k :=
  funext fun a => Fin.ext (by match a with | ⟨0, _⟩ => rfl | ⟨1, _⟩ => rfl)

private theorem tr28_eq (r : Fin 100000) (j k : Fin 128) : idx_main_v28 (ridx_main_v29 (ix2 r j) k) = ix2 j k :=
  funext fun a => Fin.ext (by match a with | ⟨0, _⟩ => rfl | ⟨1, _⟩ => rfl)

private theorem row32_eq (r : Fin 100000) (q k : Fin 128) :
    idx_main_v32 (idx_main_v33 (idx_main_v37 (ix2 r q))) k = ix2 r k :=
  funext fun a => Fin.ext (by match a with | ⟨0, _⟩ => rfl | ⟨1, _⟩ => rfl)

/-- The neighbour term: the aggregated row against the left weights' row `j`. -/
private theorem dot24_eq (x0 : (⟨S100000x128, .f32⟩ : BufTy).Contents (Elt Ideal)) (x1 : (⟨S2x800000, .i32⟩ : BufTy).Contents (Elt Ideal))
    (x2 : (⟨S128x128, .f32⟩ : BufTy).Contents (Elt Ideal)) (r : Fin 100000) (j : Fin 128) :
    val_main_v24 (F := Ideal) x0 x1 x2 (ix2 r j)
      = ∑ k : Fin 128, val_main_v22 (F := Ideal) x0 x1 (ix2 r k) * x2 (ix2 j k) := by
  rw [val_main_v24_apply]
  refine Finset.sum_congr rfl fun k _ => ?_
  rw [val_main_v23_apply, lidx24_eq, tr23_eq]

/-- The root term: the node's own row against the right weights' row `j`. -/
private theorem dot29_eq (x0 : (⟨S100000x128, .f32⟩ : BufTy).Contents (Elt Ideal)) (x4 : (⟨S128x128, .f32⟩ : BufTy).Contents (Elt Ideal)) (r : Fin 100000) (j : Fin 128) :
    val_main_v29 (F := Ideal) x0 x4 (ix2 r j) = ∑ k : Fin 128, x0 (ix2 r k) * x4 (ix2 j k) := by
  rw [val_main_v29_apply]
  refine Finset.sum_congr rfl fun k _ => ?_
  rw [val_main_v28_apply, lidx29_eq, tr28_eq]

/-- Before normalisation, the reference's entry (r, j) is `linRow` of the node's two rows. -/
private theorem lin30_eq (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (r : Fin 100000) (j : Fin 128) :
    val_main_v30 (F := Ideal) x0 x1 x2 x3 x4 (ix2 r j)
      = Cert.Sage.linRow (fun k => val_main_v22 (F := Ideal) x0 x1 (ix2 r k)) (fun k => x0 (ix2 r k))
          (fun q k => x2 (ix2 q k)) (fun q k => x4 (ix2 q k)) (fun q => x3 (ix1 q)) j := by
  rw [val_main_v30_apply, val_main_v27_apply, dot24_eq, dot29_eq, val_main_v26_apply, val_main_v25_apply, bias26_eq]
  rfl

/-- The row's sum of squares: the sum starts from the zero word, which is zero. -/
private theorem sumsq32_eq (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (r : Fin 100000) (q : Fin 128) :
    val_main_v32 (F := Ideal) x0 x1 x2 x3 x4 (idx_main_v33 (idx_main_v37 (ix2 r q)))
      = ∑ j : Fin 128, val_main_v30 (F := Ideal) x0 x1 x2 x3 x4 (ix2 r j) * val_main_v30 (F := Ideal) x0 x1 x2 x3 x4 (ix2 r j) := by
  rw [val_main_v32_apply, val_main_cst_4_apply, Ideal.ofBits_def, Ideal.ofBits_zero_f32, zero_add]
  refine Finset.sum_congr rfl fun k _ => ?_
  rw [val_main_v31_apply, row32_eq]
  rfl

/-- The reference's first layer: its normalised output is `Sage.sage` of its mean-aggregated features, the node
    features, the two weight matrices and the bias. -/
theorem v38_eq (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v38 (F := Ideal) x0 x1 x2 x3 x4
      = fun i => Cert.Sage.sage (C := 128)
          (fun r k => val_main_v22 (F := Ideal) x0 x1 (ix2 r k)) (fun r k => x0 (ix2 r k))
          (fun q k => x2 (ix2 q k)) (fun q k => x4 (ix2 q k)) (fun q => x3 (ix1 q)) (i 0) (i 1) := by
  funext i
  obtain ⟨r, q, rfl⟩ : ∃ (r : Fin 100000) (q : Fin 128), i = ix2 r q := ⟨i 0, i 1, eq_ix2 i⟩
  rw [val_main_v38_apply, val_main_v37_apply, val_main_v36_apply, val_main_v34_apply, val_main_v33_apply,
    val_main_v35_apply, val_main_cst_5_apply, sumsq32_eq, lin30_eq]
  simp only [lin30_eq, Ideal.hostDivf_def, Ideal.maximumf_def, Ideal.hostUnary_sqrt_def, Ideal.ofBits_def]
  rfl

/-! ### Batch normalisation and rectifier: index bookkeeping

A column statistic or parameter broadcast along the rows is read at its column. -/

private theorem col50_eq (r : Fin 100000) (q : Fin 128) : idx_main_v49 (idx_main_v50 (ix2 r q)) = ix1 q :=
  funext fun a => Fin.ext (by match a with | ⟨0, _⟩ => rfl)

private theorem col53_eq (r : Fin 100000) (q : Fin 128) : idx_main_v52 (idx_main_v53 (ix2 r q)) = ix1 q :=
  funext fun a => Fin.ext (by match a with | ⟨0, _⟩ => rfl)

private theorem col59_eq (r : Fin 100000) (q : Fin 128) : idx_main_v58 (idx_main_v59 (ix2 r q)) = ix1 q :=
  funext fun a => Fin.ext (by match a with | ⟨0, _⟩ => rfl)

private theorem col62_eq (r : Fin 100000) (q : Fin 128) : idx_main_v61 (idx_main_v62 (ix2 r q)) = ix1 q :=
  funext fun a => Fin.ext (by match a with | ⟨0, _⟩ => rfl)

/-- The reference's batch normalisation and rectifier: `Sage.bnrelu` of the first layer's output, its column
    means and variances, the scale and the shift. -/
theorem v64_eq (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal)) :
    val_main_v64 (F := Ideal) x0 x1 x2 x3 x4 x5 x6
      = fun i => Cert.Sage.bnrelu
          (fun r k => val_main_v38 (F := Ideal) x0 x1 x2 x3 x4 (ix2 r k))
          (fun q => val_main_v41 (F := Ideal) x0 x1 x2 x3 x4 (ix1 q)) (fun q => val_main_v48 (F := Ideal) x0 x1 x2 x3 x4 (ix1 q))
          (fun q => x5 (ix1 q)) (fun q => x6 (ix1 q)) (i 0) (i 1) := by
  funext i
  obtain ⟨r, q, rfl⟩ : ∃ (r : Fin 100000) (q : Fin 128), i = ix2 r q := ⟨i 0, i 1, eq_ix2 i⟩
  rw [val_main_v64_apply, val_main_v63_apply, val_main_v60_apply, val_main_v54_apply, val_main_v51_apply,
    val_main_v50_apply, val_main_v49_apply, col50_eq, val_main_v53_apply, val_main_v52_apply, col53_eq,
    val_main_v59_apply, val_main_v58_apply, col59_eq, val_main_v57_apply, val_main_v56_apply, val_main_v55_apply,
    val_main_cst_10_apply, val_main_v62_apply, val_main_v61_apply, col62_eq, val_main_call0_v0_apply,
    val_main_call0_cst_apply]
  rfl

/-! ### Second layer: index bookkeeping, as in the first layer with 47 output columns -/

private theorem lidx89_eq (r : Fin 100000) (j : Fin 47) (k : Fin 128) : lidx_main_v89 (ix2 r j) k = ix2 r k :=
  funext fun a => Fin.ext (by match a with | ⟨0, _⟩ => rfl | ⟨1, _⟩ => rfl)

private theorem tr88_eq (r : Fin 100000) (j : Fin 47) (k : Fin 128) :
    idx_main_v88 (ridx_main_v89 (ix2 r j) k) = ix2 j k :=
  funext fun a => Fin.ext (by match a with | ⟨0, _⟩ => rfl | ⟨1, _⟩ => rfl)

private theorem bias91_eq (r : Fin 100000) (j : Fin 47) : idx_main_v90 (idx_main_v91 (ix2 r j)) = ix1 j :=
  funext fun a => Fin.ext (by match a with | ⟨0, _⟩ => rfl)

private theorem lidx94_eq (r : Fin 100000) (j : Fin 47) (k : Fin 128) : lidx_main_v94 (ix2 r j) k = ix2 r k :=
  funext fun a => Fin.ext (by match a with | ⟨0, _⟩ => rfl | ⟨1, _⟩ => rfl)

private theorem tr93_eq (r : Fin 100000) (j : Fin 47) (k : Fin 128) :
    idx_main_v93 (ridx_main_v94 (ix2 r j) k) = ix2 j k :=
  funext fun a => Fin.ext (by match a with | ⟨0, _⟩ => rfl | ⟨1, _⟩ => rfl)

private theorem row97_eq (r : Fin 100000) (q k : Fin 47) :
    idx_main_v97 (idx_main_v98 (idx_main_v102 (ix2 r q))) k = ix2 r k :=
  funext fun a => Fin.ext (by match a with | ⟨0, _⟩ => rfl | ⟨1, _⟩ => rfl)

/-- The neighbour term: the aggregated hidden row against the left weights' row `j`. -/
private theorem dot89_eq (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal))
    (x7 : (⟨S47x128, .f32⟩ : BufTy).Contents (Elt Ideal)) (r : Fin 100000) (j : Fin 47) :
    val_main_v89 (F := Ideal) x0 x1 x2 x3 x4 x5 x6 x7 (ix2 r j)
      = ∑ k : Fin 128, val_main_v87 (F := Ideal) x0 x1 x2 x3 x4 x5 x6 (ix2 r k) * x7 (ix2 j k) := by
  rw [val_main_v89_apply]
  refine Finset.sum_congr rfl fun k _ => ?_
  rw [val_main_v88_apply, lidx89_eq, tr88_eq]

/-- The root term: the node's own hidden row against the right weights' row `j`. -/
private theorem dot94_eq (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal))
    (x9 : (⟨S47x128, .f32⟩ : BufTy).Contents (Elt Ideal)) (r : Fin 100000) (j : Fin 47) :
    val_main_v94 (F := Ideal) x0 x1 x2 x3 x4 x5 x6 x9 (ix2 r j)
      = ∑ k : Fin 128, val_main_v64 (F := Ideal) x0 x1 x2 x3 x4 x5 x6 (ix2 r k) * x9 (ix2 j k) := by
  rw [val_main_v94_apply]
  refine Finset.sum_congr rfl fun k _ => ?_
  rw [val_main_v93_apply, lidx94_eq, tr93_eq]

/-- Before normalisation, the reference's entry (r, j) of the second layer is `linRow` of the node's two hidden rows. -/
private theorem lin95_eq (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal))
    (x7 : (⟨S47x128, .f32⟩ : BufTy).Contents (Elt Ideal)) (x8 : (⟨S47, .f32⟩ : BufTy).Contents (Elt Ideal))
    (x9 : (⟨S47x128, .f32⟩ : BufTy).Contents (Elt Ideal)) (r : Fin 100000) (j : Fin 47) :
    val_main_v95 (F := Ideal) x0 x1 x2 x3 x4 x5 x6 x7 x8 x9 (ix2 r j)
      = Cert.Sage.linRow (fun k => val_main_v87 (F := Ideal) x0 x1 x2 x3 x4 x5 x6 (ix2 r k))
          (fun k => val_main_v64 (F := Ideal) x0 x1 x2 x3 x4 x5 x6 (ix2 r k))
          (fun q k => x7 (ix2 q k)) (fun q k => x9 (ix2 q k)) (fun q => x8 (ix1 q)) j := by
  rw [val_main_v95_apply, val_main_v92_apply, dot89_eq, dot94_eq, val_main_v91_apply, val_main_v90_apply, bias91_eq]
  rfl

/-- The row's sum of squares in the second layer: the sum starts from the zero word, which is zero. -/
private theorem sumsq97_eq (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal))
    (x7 : (⟨S47x128, .f32⟩ : BufTy).Contents (Elt Ideal)) (x8 : (⟨S47, .f32⟩ : BufTy).Contents (Elt Ideal))
    (x9 : (⟨S47x128, .f32⟩ : BufTy).Contents (Elt Ideal)) (r : Fin 100000) (q : Fin 47) :
    val_main_v97 (F := Ideal) x0 x1 x2 x3 x4 x5 x6 x7 x8 x9 (idx_main_v98 (idx_main_v102 (ix2 r q)))
      = ∑ j : Fin 47, val_main_v95 (F := Ideal) x0 x1 x2 x3 x4 x5 x6 x7 x8 x9 (ix2 r j)
          * val_main_v95 (F := Ideal) x0 x1 x2 x3 x4 x5 x6 x7 x8 x9 (ix2 r j) := by
  rw [val_main_v97_apply, val_main_cst_17_apply, Ideal.ofBits_def, Ideal.ofBits_zero_f32, zero_add]
  refine Finset.sum_congr rfl fun k _ => ?_
  rw [val_main_v96_apply, row97_eq]
  rfl

/-- The reference's second layer: its normalised output is `Sage.sage` of its mean-aggregated hidden features,
    the hidden features, the two weight matrices and the bias. -/
theorem v103_eq (x0 : (⟨S100000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal))
    (x7 : (⟨S47x128, .f32⟩ : BufTy).Contents (Elt Ideal)) (x8 : (⟨S47, .f32⟩ : BufTy).Contents (Elt Ideal))
    (x9 : (⟨S47x128, .f32⟩ : BufTy).Contents (Elt Ideal)) :
    val_main_v103 (F := Ideal) x0 x1 x2 x3 x4 x5 x6 x7 x8 x9
      = fun i => Cert.Sage.sage (C := 47)
          (fun r k => val_main_v87 (F := Ideal) x0 x1 x2 x3 x4 x5 x6 (ix2 r k))
          (fun r k => val_main_v64 (F := Ideal) x0 x1 x2 x3 x4 x5 x6 (ix2 r k))
          (fun q k => x7 (ix2 q k)) (fun q k => x9 (ix2 q k)) (fun q => x8 (ix1 q)) (i 0) (i 1) := by
  funext i
  obtain ⟨r, q, rfl⟩ : ∃ (r : Fin 100000) (q : Fin 47), i = ix2 r q := ⟨i 0, i 1, eq_ix2 i⟩
  rw [val_main_v103_apply, val_main_v102_apply, val_main_v101_apply, val_main_v99_apply, val_main_v98_apply,
    val_main_v100_apply, val_main_cst_18_apply, sumsq97_eq, lin95_eq]
  simp only [lin95_eq, Ideal.hostDivf_def, Ideal.maximumf_def, Ideal.hostUnary_sqrt_def, Ideal.ofBits_def]
  rfl

end Cert.ReferenceIdeal.Stages

end
-- ==== Proof.BridgeA.lean ====
/-
  The first layer, from the launch to the first region's exit. The host operations before the region compute the
  mean-aggregated neighbour features by the very operations the reference applies to the same two arguments, and
  reshape the bias to a row; every argument array is as launched. The region then leaves the normalised SAGE rows
  of those arrays, which is the reference's first normalised layer.
-/
import proofs.«126531_j39075612459051_1_alg».proof.Proof.Gen.KernelIdeal.Frame
import proofs.«126531_j39075612459051_1_alg».proof.Proof.Gen.ReferenceIdeal.Read
import proofs.«126531_j39075612459051_1_alg».proof.Proof.KReg0
import proofs.«126531_j39075612459051_1_alg».proof.Proof.RefStages
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.StableHlo
open Idealize.ShloMosaic.Pipeline (Dat)
open Idealize.ShloMosaic.ValueIdx

namespace Cert.KernelIdeal.Bridge

open Cert.KernelIdeal Cert.KernelIdeal.Gen
open Cert.ReferenceIdeal.Read (val_main_v22 val_main_v38 val_main_v41 val_main_v48 val_main_v64 val_main_v87 val_main_v103)

variable (m : (ℓ : Loc nD τ sig) → Buf (Elt Ideal) ℓ) (ρ : Dev nD → PrngReg) (c : Dev nD)

/-- An argument array as launched. -/
abbrev arg (b : Ref sig .tc) : Buf (Elt Ideal) ((c.tc : Thread nD τ).loc b) := m ((c.tc : Thread nD τ).loc b)

/-! ## The contents the first region is entered with -/

set_option maxHeartbeats 1000000 in
/-- The aggregated features: gather along the edge sources, scatter-add onto the edge targets, divide by the
    floored in-degree — operation for operation the reference's. -/
theorem V1_v22 : V1 m ρ c main_v22 = val_main_v22 (F := Ideal) (arg m c main_arg0) (arg m c main_arg1) := by
  show StableHlo.after hostOps0 (W0 m ρ c) (Proc.devRef .tc main_v22) = _
  simp only [hostOps0]
  after_results <;> rfl

/-- No host operation before the first region writes an argument array. -/
theorem W1_arg0 : W1 m ρ c (Proc.devRef .tc main_arg0) = arg m c main_arg0 := by
  show StableHlo.after hostOps0 (W0 m ρ c) (Proc.devRef .tc main_arg0) = _
  simp only [hostOps0]; after_results <;> rfl
theorem W1_arg1 : W1 m ρ c (Proc.devRef .tc main_arg1) = arg m c main_arg1 := by
  show StableHlo.after hostOps0 (W0 m ρ c) (Proc.devRef .tc main_arg1) = _
  simp only [hostOps0]; after_results <;> rfl
theorem W1_arg2 : W1 m ρ c (Proc.devRef .tc main_arg2) = arg m c main_arg2 := by
  show StableHlo.after hostOps0 (W0 m ρ c) (Proc.devRef .tc main_arg2) = _
  simp only [hostOps0]; after_results <;> rfl
theorem W1_arg4 : W1 m ρ c (Proc.devRef .tc main_arg4) = arg m c main_arg4 := by
  show StableHlo.after hostOps0 (W0 m ρ c) (Proc.devRef .tc main_arg4) = _
  simp only [hostOps0]; after_results <;> rfl
theorem W1_arg5 : W1 m ρ c (Proc.devRef .tc main_arg5) = arg m c main_arg5 := by
  show StableHlo.after hostOps0 (W0 m ρ c) (Proc.devRef .tc main_arg5) = _
  simp only [hostOps0]; after_results <;> rfl
theorem W1_arg6 : W1 m ρ c (Proc.devRef .tc main_arg6) = arg m c main_arg6 := by
  show StableHlo.after hostOps0 (W0 m ρ c) (Proc.devRef .tc main_arg6) = _
  simp only [hostOps0]; after_results <;> rfl
theorem W1_arg7 : W1 m ρ c (Proc.devRef .tc main_arg7) = arg m c main_arg7 := by
  show StableHlo.after hostOps0 (W0 m ρ c) (Proc.devRef .tc main_arg7) = _
  simp only [hostOps0]; after_results <;> rfl
theorem W1_arg8 : W1 m ρ c (Proc.devRef .tc main_arg8) = arg m c main_arg8 := by
  show StableHlo.after hostOps0 (W0 m ρ c) (Proc.devRef .tc main_arg8) = _
  simp only [hostOps0]; after_results <;> rfl
theorem W1_arg9 : W1 m ρ c (Proc.devRef .tc main_arg9) = arg m c main_arg9 := by
  show StableHlo.after hostOps0 (W0 m ρ c) (Proc.devRef .tc main_arg9) = _
  simp only [hostOps0]; after_results <;> rfl

theorem V1_arg0 : V1 m ρ c main_arg0 = arg m c main_arg0 := W1_arg0 m ρ c
theorem V1_arg2 : V1 m ρ c main_arg2 = arg m c main_arg2 := W1_arg2 m ρ c
theorem V1_arg4 : V1 m ρ c main_arg4 = arg m c main_arg4 := W1_arg4 m ρ c

/-- The bias row the first region reads is the bias vector with a unit axis in front. -/
theorem V1_v23_at (q : Fin 128) : V1 m ρ c main_v23 (ix2 (0 : Fin 1) q) = arg m c main_arg3 (ix1 q) := by
  have e : V1 m ρ c main_v23 = shapeCast S1x128 (arg m c main_arg3) shapeCasts_S128_S1x128 := by
    show StableHlo.after hostOps0 (W0 m ρ c) (Proc.devRef .tc main_v23) = _
    simp only [hostOps0]; after_results <;> rfl
  rw [e]
  exact shapeCast_a_1a_apply _ _ 0 q

/-! ## The first region's exit -/

/-- After the first region its output array is the reference's first normalised layer. -/
theorem W2_v24 : W2 m ρ c (Proc.devRef .tc main_v24)
    = val_main_v38 (F := Ideal) (arg m c main_arg0) (arg m c main_arg1) (arg m c main_arg2) (arg m c main_arg3) (arg m c main_arg4) := by
  refine ((W2_arr m ρ c 5).trans (Cert.KernelIdeal.Reg0.arr0 (V1 m ρ) c)).trans ?_
  have e23 : (fun q : Fin 128 => V1 m ρ c main_v23 (ix2 (0 : Fin 1) q)) = fun q => arg m c main_arg3 (ix1 q) :=
    funext (V1_v23_at m ρ c)
  rw [Cert.ReferenceIdeal.Stages.v38_eq, V1_v22 m ρ c, V1_arg0 m ρ c, V1_arg2 m ρ c, V1_arg4 m ρ c, e23] <;> rfl

/-- The first region leaves every array it does not stage as it was. -/
theorem W2_arg1 : W2 m ρ c (Proc.devRef .tc main_arg1) = arg m c main_arg1 := (W2_of_ne m ρ c main_arg1 (by decide)).trans (W1_arg1 m ρ c)
theorem W2_arg5 : W2 m ρ c (Proc.devRef .tc main_arg5) = arg m c main_arg5 := (W2_of_ne m ρ c main_arg5 (by decide)).trans (W1_arg5 m ρ c)
theorem W2_arg6 : W2 m ρ c (Proc.devRef .tc main_arg6) = arg m c main_arg6 := (W2_of_ne m ρ c main_arg6 (by decide)).trans (W1_arg6 m ρ c)
theorem W2_arg7 : W2 m ρ c (Proc.devRef .tc main_arg7) = arg m c main_arg7 := (W2_of_ne m ρ c main_arg7 (by decide)).trans (W1_arg7 m ρ c)
theorem W2_arg8 : W2 m ρ c (Proc.devRef .tc main_arg8) = arg m c main_arg8 := (W2_of_ne m ρ c main_arg8 (by decide)).trans (W1_arg8 m ρ c)
theorem W2_arg9 : W2 m ρ c (Proc.devRef .tc main_arg9) = arg m c main_arg9 := (W2_of_ne m ρ c main_arg9 (by decide)).trans (W1_arg9 m ρ c)

end Cert.KernelIdeal.Bridge

end
-- ==== Proof.KPay1.lean ====
/-
  The batch-normalisation body at one entry of its block: the four statistics rows are repeated down the block
  and every operation is taken entry by entry.
-/
import proofs.«126531_j39075612459051_1_alg».proof.Proof.Gen.KernelIdeal.Skeleton
import proofs.«126531_j39075612459051_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.ValueIdx

namespace Cert.KernelIdeal.Pay1

open Cert.KernelIdeal Cert.KernelIdeal.Gen

/-- Entry (p, q) of the body's stored value is `Sage.bnAt` of the block's entry and column q of the mean, variance,
    scale and shift rows (`v2` is the scale, `v4` the mean, `v10` the variance, `v17` the shift). -/
theorem pay1_apply (v0 : Vec Ideal S10000x128 .f32) (v2 v4 v10 v17 : Vec Ideal S1x128 .f32) (p : Fin 10000) (q : Fin 128) :
    k1_pay1 (F := Ideal) v0 v2 v4 v10 v17 (ix2 p q)
      = Cert.Sage.bnAt (v0 (ix2 p q)) (v4 (ix2 (0 : Fin 1) q)) (v10 (ix2 (0 : Fin 1) q)) (v2 (ix2 (0 : Fin 1) q)) (v17 (ix2 (0 : Fin 1) q)) := by
  unfold k1_pay1
  -- the casts to the same shape are the identity
  simp only [shapeCast_self]
  -- every operation reads entry by entry; a row repeated down the block reads its one row at column q
  rw [maximumf_apply, addf_apply, mulf_apply, mulf_apply, subf_apply, broadcast_apply,
    broadcastTo_1b_ab_apply, broadcastTo_1b_ab_apply, broadcastTo_1b_ab_apply, broadcastTo_1b_ab_apply]
  unfold Cert.Sage.bnAt
  -- the reciprocal square root of the offset variance at (0, q), and the two constants, are the same terms
  rfl

end Cert.KernelIdeal.Pay1

end
-- ==== Proof.KReg1.lean ====
/-
  The batch-normalisation region, read as a value: after its ten grid points the output array holds, at every
  entry (r, q), the rectified normalised entry of the arrays the region found on entry.
-/
import proofs.«126531_j39075612459051_1_alg».proof.Proof.Gen.KernelIdeal.Frame
import proofs.«126531_j39075612459051_1_alg».proof.Proof.Spec
import proofs.«126531_j39075612459051_1_alg».proof.Proof.KPay1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Reg1

open Cert.KernelIdeal Cert.KernelIdeal.Gen

/-- The zero offsets, as a constant function. -/
private theorem hz : (![0, 0] : Fin 2 → Nat) = fun _ => 0 := funext fun a => by fin_cases a <;> rfl

/-- The block indices over the ten grid points: at point t the layer-one block and the output block are block
    (t, 0) of their arrays; the four statistics rows are block (0, 0) at every point. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, k) of the layer-one block at grid point t is entry (10000 t + p, k) of the array: a block's coordinate
    is its block index times the block size plus the coordinate inside the block. -/
private theorem blk0_apply (V : (c : Dev nD) → (b : Ref sig .tc) → Buf (Elt Ideal) ((c : Thread nD τ).loc b)) (c : Dev nD) (t : Fin cfg1.N) (p : Fin 10000) (k : Fin 128) (r : Fin 100000)
    (hr : r.val = 10000 * t.val + p.val) :
    (iblk1 V c 0 t : Vec Ideal S10000x128 .f32) (ix2 p k) = V c main_v24 (ix2 r k) := by
  obtain ⟨e0, e1, -⟩ := idx_facts t
  unfold iblk1
  rw [View.read_apply]
  show V c main_v24 _ = V c main_v24 _
  congr 1
  funext a
  apply Fin.ext
  match a with
  | ⟨0, _⟩ => show win1_0.index t 0 * 10000 + 1 * p.val = r.val; rw [e0, hr]; omega
  | ⟨1, _⟩ => show win1_0.index t 1 * 128 + 1 * k.val = k.val; rw [e1]; omega

/-- The mean row's block at any grid point is the whole row: entry (0, q) of the block is entry (0, q) of the array. -/
private theorem blk1_apply (V : (c : Dev nD) → (b : Ref sig .tc) → Buf (Elt Ideal) ((c : Thread nD τ).loc b)) (c : Dev nD) (t : Fin cfg1.N) (q : Fin 128) :
    (iblk1 V c 1 t : Vec Ideal S1x128 .f32) (ix2 (0 : Fin 1) q) = V c main_v35 (ix2 (0 : Fin 1) q) := by
  obtain ⟨-, -, e0, e1, -⟩ := idx_facts t
  unfold iblk1
  rw [View.read_apply]
  show V c main_v35 _ = V c main_v35 _
  congr 1
  funext a
  apply Fin.ext
  match a with
  | ⟨0, _⟩ => show win1_1.index t 0 * 1 + 1 * 0 = 0; rw [e0]
  | ⟨1, _⟩ => show win1_1.index t 1 * 128 + 1 * q.val = q.val; rw [e1]; omega

/-- The variance row's block at any grid point is the whole row: entry (0, q) of the block is entry (0, q) of the array. -/
private theorem blk2_apply (V : (c : Dev nD) → (b : Ref sig .tc) → Buf (Elt Ideal) ((c : Thread nD τ).loc b)) (c : Dev nD) (t : Fin cfg1.N) (q : Fin 128) :
    (iblk1 V c 2 t : Vec Ideal S1x128 .f32) (ix2 (0 : Fin 1) q) = V c main_v36 (ix2 (0 : Fin 1) q) := by
  obtain ⟨-, -, -, -, e0, e1, -⟩ := idx_facts t
  unfold iblk1
  rw [View.read_apply]
  show V c main_v36 _ = V c main_v36 _
  congr 1
  funext a
  apply Fin.ext
  match a with
  | ⟨0, _⟩ => show win1_2.index t 0 * 1 + 1 * 0 = 0; rw [e0]
  | ⟨1, _⟩ => show win1_2.index t 1 * 128 + 1 * q.val = q.val; rw [e1]; omega

/-- The scale row's block at any grid point is the whole row: entry (0, q) of the block is entry (0, q) of the array. -/
private theorem blk3_apply (V : (c : Dev nD) → (b : Ref sig .tc) → Buf (Elt Ideal) ((c : Thread nD τ).loc b)) (c : Dev nD) (t : Fin cfg1.N) (q : Fin 128) :
    (iblk1 V c 3 t : Vec Ideal S1x128 .f32) (ix2 (0 : Fin 1) q) = V c main_v37 (ix2 (0 : Fin 1) q) := by
  obtain ⟨-, -, -, -, -, -, e0, e1, -⟩ := idx_facts t
  unfold iblk1
  rw [View.read_apply]
  show V c main_v37 _ = V c main_v37 _
  congr 1
  funext a
  apply Fin.ext
  match a with
  | ⟨0, _⟩ => show win1_3.index t 0 * 1 + 1 * 0 = 0; rw [e0]
  | ⟨1, _⟩ => show win1_3.index t 1 * 128 + 1 * q.val = q.val; rw [e1]; omega

/-- The shift row's block at any grid point is the whole row: entry (0, q) of the block is entry (0, q) of the array. -/
private theorem blk4_apply (V : (c : Dev nD) → (b : Ref sig .tc) → Buf (Elt Ideal) ((c : Thread nD τ).loc b)) (c : Dev nD) (t : Fin cfg1.N) (q : Fin 128) :
    (iblk1 V c 4 t : Vec Ideal S1x128 .f32) (ix2 (0 : Fin 1) q) = V c main_v38 (ix2 (0 : Fin 1) q) := by
  obtain ⟨-, -, -, -, -, -, -, -, e0, e1, -⟩ := idx_facts t
  unfold iblk1
  rw [View.read_apply]
  show V c main_v38 _ = V c main_v38 _
  congr 1
  funext a
  apply Fin.ext
  match a with
  | ⟨0, _⟩ => show win1_4.index t 0 * 1 + 1 * 0 = 0; rw [e0]
  | ⟨1, _⟩ => show win1_4.index t 1 * 128 + 1 * q.val = q.val; rw [e1]; omega

/-- The array the region leaves: entry (r, q) is the rectified normalised entry (r, q) of the layer-one output. -/
private abbrev G (V : (c : Dev nD) → (b : Ref sig .tc) → Buf (Elt Ideal) ((c : Thread nD τ).loc b)) (c : Dev nD) : S100000x128.Idx → EReal := fun i =>
  Cert.Sage.bnrelu (fun r k => V c main_v24 (ix2 r k))
    (fun q => V c main_v35 (ix2 (0 : Fin 1) q)) (fun q => V c main_v36 (ix2 (0 : Fin 1) q))
    (fun q => V c main_v37 (ix2 (0 : Fin 1) q)) (fun q => V c main_v38 (ix2 (0 : Fin 1) q)) (i 0) (i 1)

/-- What grid point t writes back is block t of `G`: entry (p, q) of the body's value is `Sage.bnAt` of entry
    (10000 t + p, q) of the layer-one output and column q of the four rows, which is `G` at (10000 t + p, q). -/
private theorem flushed_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S10000x128) hz, View.ld_unit_zero (S := S1x128) hz]
  funext j
  obtain ⟨p, q, rfl⟩ : ∃ (p : Fin 10000) (q : Fin 128), j = ix2 p q := ⟨j 0, j 1, eq_ix2 j⟩
  have ht : t.val < 10 := lt_of_lt_of_eq t.isLt N_1
  have hr : 10000 * t.val + p.val < 100000 := by have := p.isLt; omega
  obtain ⟨-, -, -, -, -, -, -, -, -, -, e0, e1⟩ := idx_facts t
  -- entry (p, q) of output block t sits at (10000 t + p, q) of the array
  have hemb : ((cfg1.win 5).blk t).view.emb (ix2 p q) = ix2 (⟨10000 * t.val + p.val, hr⟩ : Fin 100000) q := by
    funext a
    apply Fin.ext
    match a with
    | ⟨0, _⟩ => show win1_5.index t 0 * 10000 + 1 * p.val = 10000 * t.val + p.val; rw [e0]; omega
    | ⟨1, _⟩ => show win1_5.index t 1 * 128 + 1 * q.val = q.val; rw [e1]; omega
  rw [View.read_apply]
  show k1_pay1 (F := Ideal) (iblk1 V c 0 t) (iblk1 V c 3 t) (iblk1 V c 1 t) (iblk1 V c 2 t) (iblk1 V c 4 t) (ix2 p q)
    = G V c (((cfg1.win 5).blk t).view.emb (ix2 p q))
  rw [hemb, Pay1.pay1_apply]
  show Cert.Sage.bnAt _ _ _ _ _ = Cert.Sage.bnAt (V c main_v24 (ix2 (⟨10000 * t.val + p.val, hr⟩ : Fin 100000) q))
    (V c main_v35 (ix2 (0 : Fin 1) q)) (V c main_v36 (ix2 (0 : Fin 1) q)) (V c main_v37 (ix2 (0 : Fin 1) q)) (V c main_v38 (ix2 (0 : Fin 1) q))
  rw [blk0_apply V c t p q ⟨10000 * t.val + p.val, hr⟩ rfl, blk1_apply V c t q, blk2_apply V c t q, blk3_apply V c t q, blk4_apply V c t q]

/-- An index of the array is in output block t iff each coordinate lies in the block's range on its axis. -/
private theorem mem_blk (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v39).slice (win1_5.rect t)).set ↔ _
  rw [View.set_slice_whole, Rect.mem_set_unit]
  exact Iff.rfl

/-- The ten output blocks cover the array: row r lies in block r / 10000. -/
private theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 10000 < grid1.N := by rw [N_1]; omega
  obtain ⟨-, -, -, -, -, -, -, -, -, -, e0, e1⟩ := idx_facts ⟨(i 0).val / 10000, hlt⟩
  refine ⟨⟨(i 0).val / 10000, hlt⟩, flush1_5 _, ?_⟩
  rw [mem_blk]
  intro a
  match a with
  | ⟨0, _⟩ =>
    show win1_5.index ⟨(i 0).val / 10000, hlt⟩ 0 * 10000 ≤ (i 0).val ∧ (i 0).val < win1_5.index ⟨(i 0).val / 10000, hlt⟩ 0 * 10000 + 10000
    rw [e0]
    show (i 0).val / 10000 * 10000 ≤ (i 0).val ∧ (i 0).val < (i 0).val / 10000 * 10000 + 10000
    omega
  | ⟨1, _⟩ =>
    show win1_5.index ⟨(i 0).val / 10000, hlt⟩ 1 * 128 ≤ (i 1).val ∧ (i 1).val < win1_5.index ⟨(i 0).val / 10000, hlt⟩ 1 * 128 + 128
    rw [e1]
    omega

/-- The normalised and rectified array after the region: entry (r, q) is `Sage.bnrelu` of the layer-one output,
    the column means, the column variances, the scale row and the shift row as the region found them. -/
theorem arr1 (V : (c : Dev nD) → (b : Ref sig .tc) → Buf (Elt Ideal) ((c : Thread nD τ).loc b)) (c : Dev nD) :
    (dat1 (F := Ideal) V c).arrAt 5 cfg1.N
      = fun i => Cert.Sage.bnrelu
          (fun r k => V c main_v24 (ix2 r k))
          (fun q => V c main_v35 (ix2 (0 : Fin 1) q)) (fun q => V c main_v36 (ix2 (0 : Fin 1) q))
          (fun q => V c main_v37 (ix2 (0 : Fin 1) q)) (fun q => V c main_v38 (ix2 (0 : Fin 1) q)) (i 0) (i 1) :=
  -- every grid point writes back its block of `G`, and the blocks cover the array
  (dat1 V c).arrAt_eq_of_cover 5 (G V c) (fun t _ => flushed_eq V c t) cover

end Cert.KernelIdeal.Reg1

end
-- ==== Proof.BridgeB.lean ====
/-
  From the first region's exit to the second region's exit. The host operations in between take the column means
  and the biased column variances of the first layer's output by the reference's own operations and reshape the
  four statistics vectors to rows; the region then applies batch normalisation and the rectifier entry by entry,
  which is the reference's normalised, rectified hidden layer.
-/
import proofs.«126531_j39075612459051_1_alg».proof.Proof.Gen.KernelIdeal.Frame
import proofs.«126531_j39075612459051_1_alg».proof.Proof.Gen.ReferenceIdeal.Read
import proofs.«126531_j39075612459051_1_alg».proof.Proof.BridgeA
import proofs.«126531_j39075612459051_1_alg».proof.Proof.KReg1
import proofs.«126531_j39075612459051_1_alg».proof.Proof.RefStages
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.StableHlo
open Idealize.ShloMosaic.Pipeline (Dat)
open Idealize.ShloMosaic.ValueIdx

namespace Cert.KernelIdeal.Bridge

open Cert.KernelIdeal Cert.KernelIdeal.Gen
open Cert.ReferenceIdeal.Read (val_main_v22 val_main_v38 val_main_v41 val_main_v48 val_main_v64 val_main_v87 val_main_v103)

variable (m : (ℓ : Loc nD τ sig) → Buf (Elt Ideal) ℓ) (ρ : Dev nD → PrngReg) (c : Dev nD)

/-! ## The contents the second region is entered with -/

/-- The first layer's output is untouched by the host operations that follow it. -/
theorem V3_v24 : V3 m ρ c main_v24 = val_main_v38 (F := Ideal) (arg m c main_arg0) (arg m c main_arg1) (arg m c main_arg2) (arg m c main_arg3) (arg m c main_arg4) := by
  show StableHlo.after hostOps1 (W2 m ρ c) (Proc.devRef .tc main_v24) = _
  simp only [hostOps1]; after_results <;> exact W2_v24 m ρ c

/-- The mean row: the column sums over 100000, with a unit axis in front — the reference's column means. -/
theorem V3_v35_at (q : Fin 128) : V3 m ρ c main_v35 (ix2 (0 : Fin 1) q) = val_main_v41 (F := Ideal) (arg m c main_arg0) (arg m c main_arg1) (arg m c main_arg2) (arg m c main_arg3) (arg m c main_arg4) (ix1 q) := by
  have e : V3 m ρ c main_v35 = shapeCast S1x128 (val_main_v41 (F := Ideal) (arg m c main_arg0) (arg m c main_arg1) (arg m c main_arg2) (arg m c main_arg3) (arg m c main_arg4)) shapeCasts_S128_S1x128 := by
    show StableHlo.after hostOps1 (W2 m ρ c) (Proc.devRef .tc main_v35) = _
    simp only [hostOps1]; after_results; rw [W2_v24 m ρ c] <;> rfl
  rw [e]
  exact shapeCast_a_1a_apply _ _ 0 q

/-- The variance row: the column sums of the squared deviations over 100000 — the reference's column variances. -/
theorem V3_v36_at (q : Fin 128) : V3 m ρ c main_v36 (ix2 (0 : Fin 1) q) = val_main_v48 (F := Ideal) (arg m c main_arg0) (arg m c main_arg1) (arg m c main_arg2) (arg m c main_arg3) (arg m c main_arg4) (ix1 q) := by
  have e : V3 m ρ c main_v36 = shapeCast S1x128 (val_main_v48 (F := Ideal) (arg m c main_arg0) (arg m c main_arg1) (arg m c main_arg2) (arg m c main_arg3) (arg m c main_arg4)) shapeCasts_S128_S1x128 := by
    show StableHlo.after hostOps1 (W2 m ρ c) (Proc.devRef .tc main_v36) = _
    simp only [hostOps1]; after_results; rw [W2_v24 m ρ c] <;> rfl
  rw [e]
  exact shapeCast_a_1a_apply _ _ 0 q

/-- The scale row is the scale vector with a unit axis in front. -/
theorem V3_v37_at (q : Fin 128) : V3 m ρ c main_v37 (ix2 (0 : Fin 1) q) = arg m c main_arg5 (ix1 q) := by
  have e : V3 m ρ c main_v37 = shapeCast S1x128 (arg m c main_arg5) shapeCasts_S128_S1x128 := by
    show StableHlo.after hostOps1 (W2 m ρ c) (Proc.devRef .tc main_v37) = _
    simp only [hostOps1]; after_results; rw [W2_arg5 m ρ c] <;> rfl
  rw [e]
  exact shapeCast_a_1a_apply _ _ 0 q

/-- The shift row is the shift vector with a unit axis in front. -/
theorem V3_v38_at (q : Fin 128) : V3 m ρ c main_v38 (ix2 (0 : Fin 1) q) = arg m c main_arg6 (ix1 q) := by
  have e : V3 m ρ c main_v38 = shapeCast S1x128 (arg m c main_arg6) shapeCasts_S128_S1x128 := by
    show StableHlo.after hostOps1 (W2 m ρ c) (Proc.devRef .tc main_v38) = _
    simp only [hostOps1]; after_results; rw [W2_arg6 m ρ c] <;> rfl
  rw [e]
  exact shapeCast_a_1a_apply _ _ 0 q

/-- No host operation between the first two regions writes an argument array. -/
theorem W3_arg1 : W3 m ρ c (Proc.devRef .tc main_arg1) = arg m c main_arg1 := by
  show StableHlo.after hostOps1 (W2 m ρ c) (Proc.devRef .tc main_arg1) = _
  simp only [hostOps1]; after_results <;> exact W2_arg1 m ρ c
theorem W3_arg7 : W3 m ρ c (Proc.devRef .tc main_arg7) = arg m c main_arg7 := by
  show StableHlo.after hostOps1 (W2 m ρ c) (Proc.devRef .tc main_arg7) = _
  simp only [hostOps1]; after_results <;> exact W2_arg7 m ρ c
theorem W3_arg8 : W3 m ρ c (Proc.devRef .tc main_arg8) = arg m c main_arg8 := by
  show StableHlo.after hostOps1 (W2 m ρ c) (Proc.devRef .tc main_arg8) = _
  simp only [hostOps1]; after_results <;> exact W2_arg8 m ρ c
theorem W3_arg9 : W3 m ρ c (Proc.devRef .tc main_arg9) = arg m c main_arg9 := by
  show StableHlo.after hostOps1 (W2 m ρ c) (Proc.devRef .tc main_arg9) = _
  simp only [hostOps1]; after_results <;> exact W2_arg9 m ρ c

/-! ## The second region's exit -/

/-- After the second region its output array is the reference's normalised, rectified hidden layer. -/
theorem W4_v39 : W4 m ρ c (Proc.devRef .tc main_v39) = val_main_v64 (F := Ideal) (arg m c main_arg0) (arg m c main_arg1) (arg m c main_arg2) (arg m c main_arg3) (arg m c main_arg4) (arg m c main_arg5) (arg m c main_arg6) := by
  refine ((W4_arr m ρ c 5).trans (Cert.KernelIdeal.Reg1.arr1 (V3 m ρ) c)).trans ?_
  have e35 : (fun q : Fin 128 => V3 m ρ c main_v35 (ix2 (0 : Fin 1) q)) = fun q => val_main_v41 (F := Ideal) (arg m c main_arg0) (arg m c main_arg1) (arg m c main_arg2) (arg m c main_arg3) (arg m c main_arg4) (ix1 q) :=
    funext (V3_v35_at m ρ c)
  have e36 : (fun q : Fin 128 => V3 m ρ c main_v36 (ix2 (0 : Fin 1) q)) = fun q => val_main_v48 (F := Ideal) (arg m c main_arg0) (arg m c main_arg1) (arg m c main_arg2) (arg m c main_arg3) (arg m c main_arg4) (ix1 q) :=
    funext (V3_v36_at m ρ c)
  have e37 : (fun q : Fin 128 => V3 m ρ c main_v37 (ix2 (0 : Fin 1) q)) = fun q => arg m c main_arg5 (ix1 q) :=
    funext (V3_v37_at m ρ c)
  have e38 : (fun q : Fin 128 => V3 m ρ c main_v38 (ix2 (0 : Fin 1) q)) = fun q => arg m c main_arg6 (ix1 q) :=
    funext (V3_v38_at m ρ c)
  rw [Cert.ReferenceIdeal.Stages.v64_eq, V3_v24 m ρ c, e35, e36, e37, e38] <;> rfl

/-- The second region leaves every array it does not stage as it was. -/
theorem W4_arg1 : W4 m ρ c (Proc.devRef .tc main_arg1) = arg m c main_arg1 := (W4_of_ne m ρ c main_arg1 (by decide)).trans (W3_arg1 m ρ c)
theorem W4_arg7 : W4 m ρ c (Proc.devRef .tc main_arg7) = arg m c main_arg7 := (W4_of_ne m ρ c main_arg7 (by decide)).trans (W3_arg7 m ρ c)
theorem W4_arg8 : W4 m ρ c (Proc.devRef .tc main_arg8) = arg m c main_arg8 := (W4_of_ne m ρ c main_arg8 (by decide)).trans (W3_arg8 m ρ c)
theorem W4_arg9 : W4 m ρ c (Proc.devRef .tc main_arg9) = arg m c main_arg9 := (W4_of_ne m ρ c main_arg9 (by decide)).trans (W3_arg9 m ρ c)

end Cert.KernelIdeal.Bridge

end
-- ==== Proof.KPay2.lean ====
/-
  The second layer's kernel body at one entry of its block: as in the first layer, with 47 output columns.
-/
import proofs.«126531_j39075612459051_1_alg».proof.Proof.Gen.KernelIdeal.Skeleton
import proofs.«126531_j39075612459051_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.ValueIdx

namespace Cert.KernelIdeal.Pay2

open Cert.KernelIdeal Cert.KernelIdeal.Gen

/-! ## The product's operand indices, axis by axis

The product contracts axis 1 of its 10000 × 128 left operand with axis 0 of its 128 × 47 right operand; the other
two axes are the result's. -/

/-- The left operand's row is the result's row. -/
theorem lhs_axis0 (i : S10000x47.Idx) (c : dot_S10000x128_S128x47_S10000x47_1_0_0_1_n_n.contr.Idx) :
    (dot_S10000x128_S128x47_S10000x47_1_0_0_1_n_n.lhsIdx i c 0).val = (i 0).val := by
  unfold DotDims.lhsIdx
  rw [dif_neg (show ¬(0 : Fin S10000x128.rank) ∈ dot_S10000x128_S128x47_S10000x47_1_0_0_1_n_n.lhsBatch by decide),
    dif_pos (show (0 : Fin S10000x128.rank) ∈ dot_S10000x128_S128x47_S10000x47_1_0_0_1_n_n.lhsNonContracting by decide)]
  rfl

/-- The left operand's column is the contracted coordinate. -/
theorem lhs_axis1 (i : S10000x47.Idx) (c : dot_S10000x128_S128x47_S10000x47_1_0_0_1_n_n.contr.Idx) :
    (dot_S10000x128_S128x47_S10000x47_1_0_0_1_n_n.lhsIdx i c 1).val = (c ⟨0, by decide⟩).val :=
  dot_S10000x128_S128x47_S10000x47_1_0_0_1_n_n.lhsIdx_val_of_single rfl i c

/-- The right operand's row is the contracted coordinate. -/
theorem rhs_axis0 (i : S10000x47.Idx) (c : dot_S10000x128_S128x47_S10000x47_1_0_0_1_n_n.contr.Idx) :
    (dot_S10000x128_S128x47_S10000x47_1_0_0_1_n_n.rhsIdx i c 0).val = (c ⟨0, by decide⟩).val :=
  dot_S10000x128_S128x47_S10000x47_1_0_0_1_n_n.rhsIdx_val_of_single rfl i c

/-- The right operand's column is the result's column. -/
theorem rhs_axis1 (i : S10000x47.Idx) (c : dot_S10000x128_S128x47_S10000x47_1_0_0_1_n_n.contr.Idx) :
    (dot_S10000x128_S128x47_S10000x47_1_0_0_1_n_n.rhsIdx i c 1).val = (i 1).val := by
  unfold DotDims.rhsIdx
  rw [dif_neg (show ¬(1 : Fin S128x47.rank) ∈ dot_S10000x128_S128x47_S10000x47_1_0_0_1_n_n.rhsBatch by decide),
    dif_pos (show (1 : Fin S128x47.rank) ∈ dot_S10000x128_S128x47_S10000x47_1_0_0_1_n_n.rhsNonContracting by decide)]
  rfl

/-- A product into the zero block, at entry (p, q): the sum over the 128 shared coordinates k of the left operand at
    (p, k) times the right operand at (k, q). -/
theorem product_apply (A : FVec Ideal S10000x128 .bf16) (B : FVec Ideal S128x47 .bf16) (p : Fin 10000) (q : Fin 47) :
    matmul dot_S10000x128_S128x47_S10000x47_1_0_0_1_n_n none A B (constant (F := Ideal) S10000x47 .f32 0x00000000#32) (ix2 p q)
      = ∑ k : Fin 128, A (ix2 p k) * B (ix2 k q) := by
  show FloatOps.matmul dot_S10000x128_S128x47_S10000x47_1_0_0_1_n_n none A B (constant (F := Ideal) S10000x47 .f32 0x00000000#32) (ix2 p q) = _
  rw [Ideal.matmul_constant_zero_apply, ← Equiv.sum_comp (contrEquiv1 dot_S10000x128_S128x47_S10000x47_1_0_0_1_n_n 128 rfl rfl).symm]
  refine Finset.sum_congr rfl fun k _ => ?_
  have hk := contrEquiv1_symm_val dot_S10000x128_S128x47_S10000x47_1_0_0_1_n_n 128 rfl rfl k
  have el : dot_S10000x128_S128x47_S10000x47_1_0_0_1_n_n.lhsIdx (ix2 p q) ((contrEquiv1 dot_S10000x128_S128x47_S10000x47_1_0_0_1_n_n 128 rfl rfl).symm k) = ix2 p k :=
    funext fun a => Fin.ext (by
      match a with
      | ⟨0, _⟩ => exact lhs_axis0 _ _
      | ⟨1, _⟩ => exact (lhs_axis1 _ _).trans hk)
  have er : dot_S10000x128_S128x47_S10000x47_1_0_0_1_n_n.rhsIdx (ix2 p q) ((contrEquiv1 dot_S10000x128_S128x47_S10000x47_1_0_0_1_n_n 128 rfl rfl).symm k) = ix2 k q :=
    funext fun a => Fin.ext (by
      match a with
      | ⟨0, _⟩ => exact (rhs_axis0 _ _).trans hk
      | ⟨1, _⟩ => exact rhs_axis1 _ _)
  rw [el, er]

/-! ## A vector as a column, and a column repeated along the columns -/

/-- A length-a vector viewed as an a × 1 column reads, at (p, u), the vector at p. -/
theorem column_of_vector_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a × 1 column repeated along b columns reads, at (p, c), the column at p. -/
theorem column_broadcast_apply {α : Type} {a b : ℕ} (x : (⟨2, ![a, 1]⟩ : Shape).Idx → α)
    (h : (⟨2, ![a, 1]⟩ : Shape).Broadcasts ⟨2, ![a, b]⟩) (ha : a ≠ 1) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    rw [if_neg ha]
  | ⟨1, _⟩ =>
    show 0 = if (1 : ℕ) = 1 then 0 else c.val
    rw [if_pos rfl]

/-! ## The row's sum of squares -/

/-- The index a sum along the 47 columns reads: row p with k put back on the dropped axis. -/
theorem lift_row (h : S10000x47.Reduces [1] S10000) (p : Fin 10000) (k : Fin 47) :
    h.lift (ix1 p) k = ix2 p k :=
  funext fun a => Fin.ext (by
    match a with
    | ⟨0, _⟩ => rfl
    | ⟨1, _⟩ => rfl)

/-- A block summed along its 47 columns from zero reads, at row p, the sum over the columns of row p. -/
theorem row_sum_apply (X : FVec Ideal S10000x47 .f32) (h : S10000x47.Reduces [1] S10000) (hφ : FKind.Formats .f32)
    (hacc : (0x00000000#32 : BitVec 32) = FKind.add.neutral .f32 hφ) (p : Fin 10000) :
    multiReduction (F := Ideal) .add [1] S10000 X 0x00000000#32 h hφ hacc (ix1 p) = ∑ k : Fin 47, X (ix2 p k) := by
  refine (Ideal.multiReduction_add_single X 0x00000000#32 h hφ hacc (ix1 p)).trans ?_
  exact Finset.sum_congr rfl fun k _ => congrArg X (lift_row h p k)

/-! ## The row before normalisation -/

/-- Entry (p, j) of the sum of the two products and the repeated bias row is `Sage.linRow` of row p at j: each
    47 × 128 weight matrix is read transposed, so the product's right factor at (k, j) is the weight at (j, k). -/
theorem lin_apply (v0 v3 : Vec Ideal S10000x128 .f32) (v6 v8 : Vec Ideal S47x128 .f32) (v12 : Vec Ideal S1x47 .f32)
    (p : Fin 10000) (j : Fin 47) :
    addf
        (addf
          (matmul dot_S10000x128_S128x47_S10000x47_1_0_0_1_n_n none
            (truncf .bf16 (shapeCast S10000x128 v0 shapeCasts_S10000x128_S10000x128) bitsLt_bf16_f32)
            (transpose S128x47 [1, 0] (truncf .bf16 v6 bitsLt_bf16_f32) transposes_S47x128_p1_0_S128x47)
            (constant (F := Ideal) S10000x47 .f32 0x00000000#32))
          (broadcastTo S10000x47 (shapeCast S1x47 v12 shapeCasts_S1x47_S1x47) broadcasts_S1x47_S10000x47))
        (matmul dot_S10000x128_S128x47_S10000x47_1_0_0_1_n_n none
          (truncf .bf16 (shapeCast S10000x128 v3 shapeCasts_S10000x128_S10000x128) bitsLt_bf16_f32)
          (transpose S128x47 [1, 0] (truncf .bf16 v8 bitsLt_bf16_f32) transposes_S47x128_p1_0_S128x47)
          (constant (F := Ideal) S10000x47 .f32 0x00000000#32))
        (ix2 p j)
      = Cert.Sage.linRow (C := 47) (fun k => v0 (ix2 p k)) (fun k => v3 (ix2 p k))
          (fun j k => v6 (ix2 j k)) (fun j k => v8 (ix2 j k)) (fun j => v12 (ix2 (0 : Fin 1) j)) j := by
  rw [addf_apply, addf_apply, product_apply, product_apply, broadcastTo_1b_ab_apply, shapeCast_self, shapeCast_self,
    shapeCast_self]
  unfold Cert.Sage.linRow
  refine congrArg₂ (· + ·) (congrArg₂ (· + ·) ?_ rfl) ?_
  · refine Finset.sum_congr rfl fun k _ => ?_
    rw [transpose_ix2_apply]
    rfl
  · refine Finset.sum_congr rfl fun k _ => ?_
    rw [transpose_ix2_apply]
    rfl

/-! ## The quotient by the floored norm -/

/-- For any 10000 × 47 block L: L over the row-wise floored norm of L, at entry (p, q). -/
theorem normalise_apply (L : FVec Ideal S10000x47 .f32) (hφ : FKind.Formats .f32)
    (hacc : (0x00000000#32 : BitVec 32) = FKind.add.neutral .f32 hφ) (p : Fin 10000) (q : Fin 47) :
    divf L
        (broadcastTo S10000x47
          (maximumf
            (sqrt (shapeCast S10000x1
              (multiReduction (F := Ideal) .add [1] S10000 (mulf L L) 0x00000000#32 reduces_S10000x47_S10000 hφ hacc)
              shapeCasts_S10000_S10000x1))
            (broadcast S10000x1 (Scalar.ofBits (F := Ideal) .f32 0x2B8CBCCC#32)))
          broadcasts_S10000x1_S10000x47)
        (ix2 p q)
      = Ideal.div (L (ix2 p q))
          (max (Ideal.sqrt (∑ j : Fin 47, L (ix2 p j) * L (ix2 p j))) (Ideal.ofBits .f32 0x2B8CBCCC#32)) := by
  rw [divf_apply, column_broadcast_apply _ _ (by decide), maximumf_apply]
  refine congrArg (Ideal.div (L (ix2 p q))) (congrArg₂ max ?_ rfl)
  show Ideal.sqrt (shapeCast S10000x1 _ shapeCasts_S10000_S10000x1 (ix2 p (0 : Fin 1))) = _
  rw [column_of_vector_apply, row_sum_apply]
  rfl

/-- Entry (p, q) of the body's stored value is `Sage.sageRow` of row p of the two feature blocks, the two weight
    matrices and the bias row. -/
theorem pay2_apply (v0 v3 : Vec Ideal S10000x128 .f32) (v6 v8 : Vec Ideal S47x128 .f32) (v12 : Vec Ideal S1x47 .f32)
    (p : Fin 10000) (q : Fin 47) :
    k2_pay1 (F := Ideal) v0 v3 v6 v8 v12 (ix2 p q)
      = Cert.Sage.sageRow (C := 47) (fun k => v0 (ix2 p k)) (fun k => v3 (ix2 p k))
          (fun j k => v6 (ix2 j k)) (fun j k => v8 (ix2 j k)) (fun j => v12 (ix2 (0 : Fin 1) j)) q := by
  unfold k2_pay1
  refine (normalise_apply _ _ _ p q).trans ?_
  unfold Cert.Sage.sageRow
  refine congrArg₂ Ideal.div (lin_apply v0 v3 v6 v8 v12 p q)
    (congrArg₂ max (congrArg Ideal.sqrt (Finset.sum_congr rfl fun j _ => ?_)) rfl)
  exact congrArg₂ (· * ·) (lin_apply v0 v3 v6 v8 v12 p j) (lin_apply v0 v3 v6 v8 v12 p j)

end Cert.KernelIdeal.Pay2

end
-- ==== Proof.KReg2.lean ====
/-
  The second layer's kernel region, read as a value: after its ten grid points the output array holds, at
  every entry (r, q) with q below 47, the normalised SAGE row of the arrays the region found on entry.
-/
import proofs.«126531_j39075612459051_1_alg».proof.Proof.Gen.KernelIdeal.Frame
import proofs.«126531_j39075612459051_1_alg».proof.Proof.Spec
import proofs.«126531_j39075612459051_1_alg».proof.Proof.KPay2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Reg2

open Cert.KernelIdeal Cert.KernelIdeal.Gen

/-- The pair of zero offsets, spelt as a constant function. -/
private theorem zero_off : (![0, 0] : Fin 2 → Nat) = fun _ => 0 := funext fun a => by fin_cases a <;> rfl

/-- The block indices over the ten grid points: the two row-blocked inputs and the output sit at block (t, 0),
    the two weight matrices and the bias row at block (0, 0). -/
private theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Blocks

variable (V : (c : Dev nD) → (b : Ref sig .tc) → Buf (Elt Ideal) ((c : Thread nD τ).loc b)) (c : Dev nD)

/-- Row p of block t of the aggregated hidden features is row 10000·t + p of the array. -/
private theorem agg_rows (t : Fin cfg2.N) (p : Fin 10000) (k : Fin 128) (h : 10000 * t.val + p.val < 100000) :
    (iblk2 (F := Ideal) V c 0 t : Vec Ideal S10000x128 .f32) (ix2 p k) = V c main_v62 (ix2 ⟨10000 * t.val + p.val, h⟩ k) := by
  obtain ⟨e0, e1, -⟩ := index_facts t
  unfold iblk2
  rw [View.read_apply]
  show V c main_v62 _ = V c main_v62 _
  refine congrArg (V c main_v62) ?_
  funext a
  apply Fin.ext
  match a with
  | ⟨0, _⟩ => show win2_0.index t 0 * 10000 + 1 * p.val = 10000 * t.val + p.val; rw [e0]; omega
  | ⟨1, _⟩ => show win2_0.index t 1 * 128 + 1 * k.val = k.val; rw [e1]; omega

/-- Row p of block t of the hidden features is row 10000·t + p of the array. -/
private theorem own_rows (t : Fin cfg2.N) (p : Fin 10000) (k : Fin 128) (h : 10000 * t.val + p.val < 100000) :
    (iblk2 (F := Ideal) V c 1 t : Vec Ideal S10000x128 .f32) (ix2 p k) = V c main_v39 (ix2 ⟨10000 * t.val + p.val, h⟩ k) := by
  obtain ⟨-, -, e0, e1, -⟩ := index_facts t
  unfold iblk2
  rw [View.read_apply]
  show V c main_v39 _ = V c main_v39 _
  refine congrArg (V c main_v39) ?_
  funext a
  apply Fin.ext
  match a with
  | ⟨0, _⟩ => show win2_1.index t 0 * 10000 + 1 * p.val = 10000 * t.val + p.val; rw [e0]; omega
  | ⟨1, _⟩ => show win2_1.index t 1 * 128 + 1 * k.val = k.val; rw [e1]; omega

/-- The left weights' block at every point is the whole 47-row matrix. -/
private theorem left_weights (t : Fin cfg2.N) (j : Fin 47) (k : Fin 128) :
    (iblk2 (F := Ideal) V c 2 t : Vec Ideal S47x128 .f32) (ix2 j k) = V c main_arg7 (ix2 j k) := by
  obtain ⟨-, -, -, -, e0, e1, -⟩ := index_facts t
  unfold iblk2
  rw [View.read_apply]
  show V c main_arg7 _ = V c main_arg7 _
  refine congrArg (V c main_arg7) ?_
  funext a
  apply Fin.ext
  match a with
  | ⟨0, _⟩ => show win2_2.index t 0 * 47 + 1 * j.val = j.val; rw [e0]; omega
  | ⟨1, _⟩ => show win2_2.index t 1 * 128 + 1 * k.val = k.val; rw [e1]; omega

/-- The bias row's block at every point is the whole row of 47. -/
private theorem bias_row (t : Fin cfg2.N) (j : Fin 47) :
    (iblk2 (F := Ideal) V c 3 t : Vec Ideal S1x47 .f32) (ix2 (0 : Fin 1) j) = V c main_v63 (ix2 (0 : Fin 1) j) := by
  obtain ⟨-, -, -, -, -, -, e0, e1, -⟩ := index_facts t
  unfold iblk2
  rw [View.read_apply]
  show V c main_v63 _ = V c main_v63 _
  refine congrArg (V c main_v63) ?_
  funext a
  apply Fin.ext
  match a with
  | ⟨0, _⟩ => show win2_3.index t 0 * 1 + 1 * (0 : Fin 1).val = (0 : Fin 1).val; rw [e0]; rfl
  | ⟨1, _⟩ => show win2_3.index t 1 * 47 + 1 * j.val = j.val; rw [e1]; omega

/-- The right weights' block at every point is the whole 47-row matrix. -/
private theorem right_weights (t : Fin cfg2.N) (j : Fin 47) (k : Fin 128) :
    (iblk2 (F := Ideal) V c 4 t : Vec Ideal S47x128 .f32) (ix2 j k) = V c main_arg9 (ix2 j k) := by
  obtain ⟨-, -, -, -, -, -, -, -, e0, e1, -⟩ := index_facts t
  unfold iblk2
  rw [View.read_apply]
  show V c main_arg9 _ = V c main_arg9 _
  refine congrArg (V c main_arg9) ?_
  funext a
  apply Fin.ext
  match a with
  | ⟨0, _⟩ => show win2_4.index t 0 * 47 + 1 * j.val = j.val; rw [e0]; omega
  | ⟨1, _⟩ => show win2_4.index t 1 * 128 + 1 * k.val = k.val; rw [e1]; omega

/-- The whole output array as one function of the arrays on entry: entry (r, q), q below 47, is the normalised
    SAGE row of node r at column q. -/
private def layer : S100000x47.Idx → EReal := fun i => Cert.Sage.sage (C := 47)
    (fun r k => V c main_v62 (ix2 r k)) (fun r k => V c main_v39 (ix2 r k))
    (fun q k => V c main_arg7 (ix2 q k)) (fun q k => V c main_arg9 (ix2 q k))
    (fun q => V c main_v63 (ix2 (0 : Fin 1) q)) (i 0) (i 1)

/-- Entry (p, q) of the output's block t sits in the array at (10000·t + p, q). -/
private theorem out_rows (t : Fin cfg2.N) (p : Fin 10000) (q : Fin 47) (h : 10000 * t.val + p.val < 100000) :
    ((cfg2.win 5).blk t).view.emb (ix2 p q) = (ix2 ⟨10000 * t.val + p.val, h⟩ q : S100000x47.Idx) := by
  obtain ⟨-, -, -, -, -, -, -, -, -, -, e0, e1⟩ := index_facts t
  funext a
  apply Fin.ext
  match a with
  | ⟨0, _⟩ => show win2_5.index t 0 * 10000 + 1 * p.val = 10000 * t.val + p.val; rw [e0]; omega
  | ⟨1, _⟩ => show win2_5.index t 1 * 47 + 1 * q.val = q.val; rw [e1]; omega

/-- What point t writes back is block t of `layer`: an output row depends on the node's own two rows, the weights
    and the bias only, and those are the same in the blocks as in the arrays. -/
private theorem flushed_eq (t : Fin cfg2.N) :
    (dat2 (F := Ideal) V c).flushed 5 t = ((cfg2.win 5).blk t).view.read (Elt Ideal) (layer V c) := by
  show (cfg2.win 5).cut (grid2.coords t) ((dat2 V c).after 5 t) = _
  rw [after2_5]
  unfold out2_5
  rw [View.canon_unit_zero zero_off]
  simp only [View.ld_unit_zero (S := S10000x128) zero_off, View.ld_unit_zero (S := S47x128) zero_off, View.ld_unit_zero (S := S1x47) zero_off]
  funext j
  obtain ⟨p, q, rfl⟩ : ∃ (p : Fin 10000) (q : Fin 47), j = ix2 p q := ⟨j 0, j 1, eq_ix2 j⟩
  have hN : cfg2.N = 10 := N_2
  have hrow : 10000 * t.val + p.val < 100000 := by have := t.isLt; have := p.isLt; omega
  refine (Pay2.pay2_apply (iblk2 V c 0 t) (iblk2 V c 1 t) (iblk2 V c 2 t) (iblk2 V c 4 t) (iblk2 V c 3 t) p q).trans ?_
  rw [View.read_apply]
  show _ = layer V c (((cfg2.win 5).blk t).view.emb (ix2 p q))
  rw [out_rows t p q hrow]
  have h0 : (fun k : Fin 128 => (iblk2 (F := Ideal) V c 0 t : Vec Ideal S10000x128 .f32) (ix2 p k)) = fun k => V c main_v62 (ix2 ⟨10000 * t.val + p.val, hrow⟩ k) :=
    funext fun k => agg_rows V c t p k hrow
  have h1 : (fun k : Fin 128 => (iblk2 (F := Ideal) V c 1 t : Vec Ideal S10000x128 .f32) (ix2 p k)) = fun k => V c main_v39 (ix2 ⟨10000 * t.val + p.val, hrow⟩ k) :=
    funext fun k => own_rows V c t p k hrow
  have h2 : (fun (j : Fin 47) (k : Fin 128) => (iblk2 (F := Ideal) V c 2 t : Vec Ideal S47x128 .f32) (ix2 j k)) = fun j k => V c main_arg7 (ix2 j k) :=
    funext fun j => funext fun k => left_weights V c t j k
  have h3 : (fun j : Fin 47 => (iblk2 (F := Ideal) V c 3 t : Vec Ideal S1x47 .f32) (ix2 (0 : Fin 1) j)) = fun j => V c main_v63 (ix2 (0 : Fin 1) j) :=
    funext fun j => bias_row V c t j
  have h4 : (fun (j : Fin 47) (k : Fin 128) => (iblk2 (F := Ideal) V c 4 t : Vec Ideal S47x128 .f32) (ix2 j k)) = fun j k => V c main_arg9 (ix2 j k) :=
    funext fun j => funext fun k => right_weights V c t j k
  rw [h0, h1, h2, h3, h4]
  rfl

/-- Every entry (r, q) of the array lies in the block of point r / 10000. -/
private theorem covered (i : S100000x47.Idx) :
    ∃ t : Fin cfg2.N, (cfg2.win 5).flush t = true ∧ i ∈ ((cfg2.win 5).blk t).view.set := by
  have hN : cfg2.N = 10 := N_2
  have hi0 : (i 0).val < 100000 := (i 0).isLt
  have hi1 : (i 1).val < 47 := (i 1).isLt
  obtain ⟨t, ht⟩ : ∃ t : Fin cfg2.N, t.val = (i 0).val / 10000 := ⟨⟨(i 0).val / 10000, by rw [hN]; omega⟩, rfl⟩
  obtain ⟨-, -, -, -, -, -, -, -, -, -, e0, e1⟩ := index_facts t
  refine ⟨t, flush2_5 t, ?_⟩
  show i ∈ ((View.whole main_v64).slice (win2_5.rect t)).set
  rw [View.set_slice_whole, Rect.mem_set_unit]
  intro a
  match a with
  | ⟨0, _⟩ => show win2_5.index t 0 * 10000 ≤ (i 0).val ∧ (i 0).val < win2_5.index t 0 * 10000 + 10000; rw [e0, ht]; omega
  | ⟨1, _⟩ => show win2_5.index t 1 * 47 ≤ (i 1).val ∧ (i 1).val < win2_5.index t 1 * 47 + 47; rw [e1]; omega

end Blocks

/-- The second layer's output array after the region: entry (r, q) is `Sage.sage` of the aggregated hidden
    features, the hidden features, the two weight matrices and the bias row as the region found them. -/
theorem arr2 (V : (c : Dev nD) → (b : Ref sig .tc) → Buf (Elt Ideal) ((c : Thread nD τ).loc b)) (c : Dev nD) :
    (dat2 (F := Ideal) V c).arrAt 5 cfg2.N
      = fun i => Cert.Sage.sage (C := 47)
          (fun r k => V c main_v62 (ix2 r k)) (fun r k => V c main_v39 (ix2 r k))
          (fun q k => V c main_arg7 (ix2 q k)) (fun q k => V c main_arg9 (ix2 q k))
          (fun q => V c main_v63 (ix2 (0 : Fin 1) q)) (i 0) (i 1) :=
  (dat2 V c).arrAt_eq_of_cover 5 (layer V c) (fun t _ => flushed_eq V c t) (covered)

end Cert.KernelIdeal.Reg2

end
-- ==== Proof.BridgeC.lean ====
/-
  From the second region's exit to the end. The host operations before the third region aggregate the hidden
  layer over the same edges by the reference's own operations and reshape the second bias to a row; the third
  region leaves the normalised SAGE rows with 47 columns, which is the reference's result.
-/
import proofs.«126531_j39075612459051_1_alg».proof.Proof.Gen.KernelIdeal.Frame
import proofs.«126531_j39075612459051_1_alg».proof.Proof.Gen.ReferenceIdeal.Read
import proofs.«126531_j39075612459051_1_alg».proof.Proof.BridgeB
import proofs.«126531_j39075612459051_1_alg».proof.Proof.KReg2
import proofs.«126531_j39075612459051_1_alg».proof.Proof.RefStages
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.StableHlo
open Idealize.ShloMosaic.Pipeline (Dat)
open Idealize.ShloMosaic.ValueIdx

namespace Cert.KernelIdeal.Bridge

open Cert.KernelIdeal Cert.KernelIdeal.Gen
open Cert.ReferenceIdeal.Read (val_main_v22 val_main_v38 val_main_v41 val_main_v48 val_main_v64 val_main_v87 val_main_v103)

variable (m : (ℓ : Loc nD τ sig) → Buf (Elt Ideal) ℓ) (ρ : Dev nD → PrngReg) (c : Dev nD)

/-! ## The contents the third region is entered with -/

/-- The hidden layer is untouched by the host operations that follow it. -/
theorem V5_v39 : V5 m ρ c main_v39 = val_main_v64 (F := Ideal) (arg m c main_arg0) (arg m c main_arg1) (arg m c main_arg2) (arg m c main_arg3) (arg m c main_arg4) (arg m c main_arg5) (arg m c main_arg6) := by
  show StableHlo.after hostOps2 (W4 m ρ c) (Proc.devRef .tc main_v39) = _
  simp only [hostOps2]; after_results <;> exact W4_v39 m ρ c

set_option maxHeartbeats 1000000 in
/-- The aggregated hidden features: the same gather, scatter-add and division by the floored in-degree, applied
    to the hidden layer — operation for operation the reference's. -/
theorem V5_v62 : V5 m ρ c main_v62 = val_main_v87 (F := Ideal) (arg m c main_arg0) (arg m c main_arg1) (arg m c main_arg2) (arg m c main_arg3) (arg m c main_arg4) (arg m c main_arg5) (arg m c main_arg6) := by
  show StableHlo.after hostOps2 (W4 m ρ c) (Proc.devRef .tc main_v62) = _
  simp only [hostOps2]
  after_results
  rw [W4_v39 m ρ c, W4_arg1 m ρ c] <;> rfl

theorem V5_arg7 : V5 m ρ c main_arg7 = arg m c main_arg7 := by
  show StableHlo.after hostOps2 (W4 m ρ c) (Proc.devRef .tc main_arg7) = _
  simp only [hostOps2]; after_results <;> exact W4_arg7 m ρ c
theorem V5_arg9 : V5 m ρ c main_arg9 = arg m c main_arg9 := by
  show StableHlo.after hostOps2 (W4 m ρ c) (Proc.devRef .tc main_arg9) = _
  simp only [hostOps2]; after_results <;> exact W4_arg9 m ρ c

/-- The bias row the third region reads is the second bias vector with a unit axis in front. -/
theorem V5_v63_at (q : Fin 47) : V5 m ρ c main_v63 (ix2 (0 : Fin 1) q) = arg m c main_arg8 (ix1 q) := by
  have e : V5 m ρ c main_v63 = shapeCast S1x47 (arg m c main_arg8) shapeCasts_S47_S1x47 := by
    show StableHlo.after hostOps2 (W4 m ρ c) (Proc.devRef .tc main_v63) = _
    simp only [hostOps2]; after_results; rw [W4_arg8 m ρ c] <;> rfl
  rw [e]
  exact shapeCast_a_1a_apply _ _ 0 q

/-! ## The result -/

/-- After the third region the result array is the reference's result, as a function of the launched arguments. -/
theorem W6_v64 : W6 m ρ c (Proc.devRef .tc main_v64) = val_main_v103 (F := Ideal) (arg m c main_arg0) (arg m c main_arg1) (arg m c main_arg2) (arg m c main_arg3) (arg m c main_arg4) (arg m c main_arg5) (arg m c main_arg6) (arg m c main_arg7) (arg m c main_arg8) (arg m c main_arg9) := by
  refine ((W6_arr m ρ c 5).trans (Cert.KernelIdeal.Reg2.arr2 (V5 m ρ) c)).trans ?_
  have e63 : (fun q : Fin 47 => V5 m ρ c main_v63 (ix2 (0 : Fin 1) q)) = fun q => arg m c main_arg8 (ix1 q) :=
    funext (V5_v63_at m ρ c)
  rw [Cert.ReferenceIdeal.Stages.v103_eq, V5_v62 m ρ c, V5_v39 m ρ c, V5_arg7 m ρ c, V5_arg9 m ρ c, e63] <;> rfl

end Cert.KernelIdeal.Bridge

end
-- ==== Proof.Claims.lean ====
/-
  The five conjuncts. Both programs are a two-layer SAGE network with mean aggregation: gather the neighbour rows
  along the edges, add them onto their target nodes, divide by the floored in-degree; apply the two linear maps
  and the bias and normalise each row by its floored Euclidean norm; batch-normalise by the column statistics of
  that layer and rectify; aggregate again and apply the second normalised layer with 47 columns. The kernel program
  does the gathers, the scatter-adds and the column statistics by the reference's own host operations and the
  dense parts in three blocked regions of ten row blocks each; over the extended reals a block of rows of each
  dense part depends on the same block of rows of its inputs, a product against a transposed weight matrix into
  a zero accumulator is the plain sum over the shared axis, and a change of float format is the identity, so the
  two programs compute one function of the arguments, entry by entry. No rewriting rule was applied in
  idealising the kernel, so the preservation conjunct is empty.
-/
import proofs.«126531_j39075612459051_1_alg».proof.Defs
import proofs.«126531_j39075612459051_1_alg».proof.Proof.Gen.Kernel.Frame
import proofs.«126531_j39075612459051_1_alg».proof.Proof.Gen.KernelIdeal.Frame
import proofs.«126531_j39075612459051_1_alg».proof.Proof.Gen.ReferenceIdeal
import proofs.«126531_j39075612459051_1_alg».proof.Proof.Gen.Pre_finite_inputs
import proofs.«126531_j39075612459051_1_alg».proof.Proof.Gen.ReferenceIdeal.Run
import proofs.«126531_j39075612459051_1_alg».proof.Proof.Gen.ReferenceIdeal.Read
import proofs.«126531_j39075612459051_1_alg».proof.Proof.KRun
import proofs.«126531_j39075612459051_1_alg».proof.Proof.BridgeC

noncomputable section

open Idealize.ShloMosaic Idealize.ShloMosaic.TcCoe Idealize.SL.Sem

namespace Cert.Proof.Claims

/-- The kernel program as printed runs to the end without fault and leaves its arguments alone. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the same result array: the kernel
    program's last boundary holds the reference's last stage of the launched arguments. -/
theorem algebraic : Cert.algebraic_KernelIdeal_ReferenceIdeal := by
  intro m ρ m' ρ' _ hagree
  refine ⟨fun c => Cert.KernelIdeal.Gen.W6 m ρ c (Proc.devRef .tc Cert.KernelIdeal.main_v64),
    Cert.KernelIdeal.Gen.run_W6 m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.KernelIdeal.Bridge.W6_v64 m ρ c).symm

end Cert.Proof.Claims

end
-- ==== Proof.lean ====
/-
  The certificate: a two-layer SAGE network with mean aggregation, batch normalisation and a rectifier, computed
  with three blocked kernel regions among shared host operations, against the same network written with host
  operations only. The programs' stated side conditions are witnessed by the instances of the modules under
  Proof/Gen; the three frames, the (empty) preservation conjunct and the equality of the two results over the
  extended reals are in Proof/Claims.lean, over the regions' values (Proof/KPay*.lean, Proof/KReg*.lean), the
  reference's stages (Proof/RefStages.lean) and the contents at the boundaries between the kernel program's
  segments (Proof/Bridge*.lean).
-/
import proofs.«126531_j39075612459051_1_alg».proof.Defs
import proofs.«126531_j39075612459051_1_alg».proof.Proof.Gen.Kernel
import proofs.«126531_j39075612459051_1_alg».proof.Proof.Gen.KernelIdeal
import proofs.«126531_j39075612459051_1_alg».proof.Proof.Gen.ReferenceIdeal
import proofs.«126531_j39075612459051_1_alg».proof.Proof.Gen.Pre_finite_inputs
import proofs.«126531_j39075612459051_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
